-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S1000000x64 : Shape := ⟨2, ![1000000, 64]⟩
abbrev S16384 : Shape := ⟨1, ![16384]⟩
abbrev S2000000 : Shape := ⟨1, ![2000000]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S16384 : S_.BroadcastsInDim S16384 (![] : Fin 0 → Fin S16384.rank)
  reducesTo_S16384_S_d0 : S16384.ReducesTo [0] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg3 : IVec S16384 32) (main_arg4 : IVec S2000000 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 1000000#32
  let main_v18 : IVec S16384 32 := broadcastInDim S16384 ![] bcast_S_S16384 main_c_6
  let main_v19 : IVec S16384 1 := cmpi .slt main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S2000000 32 := broadcastInDim S2000000 ![] bcast_S_S2000000 main_c_8
  let main_v24 : IVec S2000000 1 := cmpi .sge main_arg4 main_v23
  let main_c_9 : IVec S_ 32 := constantI S_ 32 1000000#32
  let main_v25 : IVec S2000000 32 := broadcastInDim S2000000 ![] bcast_S_S2000000 main_c_9
  let main_v26 : IVec S2000000 1 := cmpi .slt main_arg4 main_v25
  let main_v27 : IVec S2000000 1 := andi main_v24 main_v26
  let main_c_10 : IVec S_ 1 := constantI S_ 1 1#1
  let main_v28 : IVec S_ 1 := (fun x v => Host.reduce IntOp.andi x v reducesTo_S2000000_S_d0 h_S_) main_v27 main_c_10
  let main_v29 : IVec S_ 1 := andi main_v22 main_v28
  main_v29

def fn {F : FTy → Type} [FloatOps F] (main_arg0 : FVec F S500000x64 .f32) (main_arg1 : FVec F S1000000x64 .f32) (main_arg2 : IVec S16384 32) (main_arg3 : IVec S16384 32) (main_arg4 : IVec S2000000 32) (main_arg5 : IVec S2000000 32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 500000#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_arg4 main_v15 main_c_5
-- ==== Kernel.lean ====
abbrev S500000x64 : Shape := ⟨2, ![500000, 64]⟩
abbrev S1000000x64 : Shape := ⟨2, ![1000000, 64]⟩
abbrev S16384 : Shape := ⟨1, ![16384]⟩
abbrev S2000000 : Shape := ⟨1, ![2000000]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x64 : Shape := ⟨2, ![2000000, 64]⟩
abbrev S8000x64 : Shape := ⟨2, ![8000, 64]⟩
abbrev S8000 : Shape := ⟨1, ![8000]⟩
abbrev S8000x1 : Shape := ⟨2, ![8000, 1]⟩
abbrev S16384x1 : Shape := ⟨2, ![16384, 1]⟩
abbrev S16384x64 : Shape := ⟨2, ![16384, 64]⟩
abbrev S2048x64 : Shape := ⟨2, ![2048, 64]⟩
abbrev S2048x1 : Shape := ⟨2, ![2048, 1]⟩
abbrev S2048 : Shape := ⟨1, ![2048]⟩

abbrev nBuf : Space → Nat
  | .hbm => 133
  | .vmem => 16
  | .smem => 0
  | _ => 0

abbrev hbmTy0_0 (i : Nat) : BufTy := match i % 128 with
  | 0 => ⟨S500000x64, .f32⟩
  | 1 => ⟨S1000000x64, .f32⟩
  | 2 => ⟨S16384, .i32⟩
  | 3 => ⟨S16384, .i32⟩
  | 4 => ⟨S2000000, .i32⟩
  | 5 => ⟨S2000000, .i32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i32⟩
  | 12 => ⟨S2000000, .i32⟩
  | 13 => ⟨S2000000x1, .i32⟩
  | 14 => ⟨S1, .i32⟩
  | 15 => ⟨S_, .i32⟩
  | 16 => ⟨S2000000x1, .i32⟩
  | 17 => ⟨S2000000x1, .i1⟩
  | 18 => ⟨S1x1, .i32⟩
  | 19 => ⟨S2000000x1, .i32⟩
  | 20 => ⟨S2000000x1, .i1⟩
  | 21 => ⟨S2000000x1, .i1⟩
  | 22 => ⟨S_, .i1⟩
  | 23 => ⟨S2000000, .i1⟩
  | 24 => ⟨S2000000x64, .f32⟩
  | 25 => ⟨S2000000x64, .i1⟩
  | 26 => ⟨S_, .f32⟩
  | 27 => ⟨S2000000x64, .f32⟩
  | 28 => ⟨S2000000x64, .f32⟩
  | 29 => ⟨S2000000x64, .f32⟩
  | 30 => ⟨S2000000x64, .f32⟩
  | 31 => ⟨S_, .f32⟩
  | 32 => ⟨S1000000x64, .f32⟩
  | 33 => ⟨S2000000x1, .i32⟩
  | 34 => ⟨S1000000x64, .f32⟩
  | 35 => ⟨S_, .f32⟩
  | 36 => ⟨S1000000x64, .f32⟩
  | 37 => ⟨S2000000x1, .i32⟩
  | 38 => ⟨S1000000x64, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x64, .f32⟩
  | 58 => ⟨S16384x64, .i1⟩
  | 59 => ⟨S_, .f32⟩
  | 60 => ⟨S16384x64, .f32⟩
  | 61 => ⟨S16384x64, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S1, .i32⟩
  | 71 => ⟨S_, .i32⟩
  | 72 => ⟨S16384x1, .i32⟩
  | 73 => ⟨S16384x1, .i1⟩
  | 74 => ⟨S1x1, .i32⟩
  | 75 => ⟨S16384x1, .i32⟩
  | 76 => ⟨S16384x1, .i1⟩
  | 77 => ⟨S16384x1, .i1⟩
  | 78 => ⟨S_, .i1⟩
  | 79 => ⟨S16384, .i1⟩
  | 80 => ⟨S16384x64, .f32⟩
  | 81 => ⟨S16384x64, .i1⟩
  | 82 => ⟨S_, .f32⟩
  | 83 => ⟨S16384x64, .f32⟩
  | 84 => ⟨S16384x64, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S1, .i32⟩
  | 94 => ⟨S_, .i32⟩
  | 95 => ⟨S16384x1, .i32⟩
  | 96 => ⟨S16384x1, .i1⟩
  | 97 => ⟨S1x1, .i32⟩
  | 98 => ⟨S16384x1, .i32⟩
  | 99 => ⟨S16384x1, .i1⟩
  | 100 => ⟨S16384x1, .i1⟩
  | 101 => ⟨S_, .i1⟩
  | 102 => ⟨S16384, .i1⟩
  | 103 => ⟨S16384x64, .f32⟩
  | 104 => ⟨S16384x64, .i1⟩
  | 105 => ⟨S_, .f32⟩
  | 106 => ⟨S16384x64, .f32⟩
  | 107 => ⟨S16384x64, .f32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x64, .f32⟩
  | 127 => ⟨S16384x64, .i1⟩
  | _ => ⟨S500000x64, .f32⟩

abbrev hbmTy0_1 (i : Nat) : BufTy := match i % 128 with
  | 0 => ⟨S_, .f32⟩
  | 1 => ⟨S16384x64, .f32⟩
  | 2 => ⟨S16384x64, .f32⟩
  | 3 => ⟨S16384x1, .f32⟩
  | 4 => ⟨S16384, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x1, .f32⟩
  | .local _ .vmem, ⟨15, _⟩ => ⟨S2048x1, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1_0 : Ref sig .tc := ⟨.hbm, 29, rfl⟩
abbrev main_v1_1 : Ref sig .tc := ⟨.hbm, 30, rfl⟩
abbrev main_cst : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v8 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v9 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v10 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_call4_cst : Ref sig .tc := ⟨.hbm, 128, rfl⟩
abbrev main_call4_v15 : Ref sig .tc := ⟨.hbm, 129, rfl⟩
abbrev main_v11 : Ref sig .tc := ⟨.hbm, 130, rfl⟩
abbrev main_v12 : Ref sig .tc := ⟨.hbm, 131, rfl⟩
abbrev main_v13 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  broadcasts_S8000x1_S8000x64 : S8000x1.Broadcasts S8000x64
  bcast_S_S1000000x64 : S_.BroadcastsInDim S1000000x64 (![] : Fin 0 → Fin S1000000x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x64_0 : S16384.BroadcastsInDim S16384x64 (![0] : Fin 1 → Fin S16384x64.rank)
  bcast_S_S16384x64 : S_.BroadcastsInDim S16384x64 (![] : Fin 0 → Fin S16384x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  broadcasts_S2048x1_S2048x64 : S2048x1.Broadcasts S2048x64
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  gather_S1000000x64_S2000000x1_S2000000x64_1_0_n_n_0_1_164_wf : GatherDims.WF S1000000x64 S2000000x1 S2000000x64 [1] [0] [] [0] [] 1 ![1, 64]
  scatter_S1000000x64_S2000000x1_S2000000x64_1_0_0_1_wf : ScatterDims.WF S1000000x64 S2000000x1 S2000000x64 [1] [0] [0] 1
  gather_S1000000x64_S16384x1_S16384x64_1_0_n_n_0_1_164_wf : GatherDims.WF S1000000x64 S16384x1 S16384x64 [1] [0] [] [0] [] 1 ![1, 64]
  gather_S500000x64_S16384x1_S16384x64_1_0_n_n_0_1_164_wf : GatherDims.WF S500000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S2000000x64.size a
  hwx0_0 : ∀ i : grid0.Coords, EltTy.bits .f32 = 32 ∨ (Rect.block (s := S2000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S2000000x64.size a
  hwx0_1 : ∀ i : grid0.Coords, EltTy.bits .f32 = 32 ∨ (Rect.block (s := S2000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S2000000x64.size a
  hwx0_2 : ∀ i : grid0.Coords, EltTy.bits .f32 = 32 ∨ (Rect.block (s := S2000000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S16384x1.size a
  hwx1_4 : ∀ i : grid1.Coords, EltTy.bits .f32 = 32 ∨ (Rect.block (s := S16384x1) S2048x1.size (cc1_transform_4 i) (hinb1_4 i)).WholeWords (EltTy.packing .f32)

variable [Facts₀]

def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def scatter_S1000000x64_S2000000x1_S2000000x64_1_0_0_1 : ScatterDims S1000000x64 S2000000x1 S2000000x64 where
  updateWindowDims := [1]
  insertedWindowDims := [0]
  scatterDimsToOperandDims := [0]
  indexVectorDim := 1
  wf := scatter_S1000000x64_S2000000x1_S2000000x64_1_0_0_1_wf
def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf

abbrev win0_0 : Pipeline.Window sig grid0 :=
  Pipeline.Window.ofSpec (Memref.whole main_v0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8000x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2048x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S500000x64 : Shape := ⟨2, ![500000, 64]⟩
abbrev S1000000x64 : Shape := ⟨2, ![1000000, 64]⟩
abbrev S16384 : Shape := ⟨1, ![16384]⟩
abbrev S2000000 : Shape := ⟨1, ![2000000]⟩
abbrev S_ : Shape := ⟨0, ![]⟩
abbrev S1000000 : Shape := ⟨1, ![1000000]⟩
abbrev S1000000x1 : Shape := ⟨2, ![1000000, 1]⟩
abbrev S2000000x1 : Shape := ⟨2, ![2000000, 1]⟩
abbrev S2000000x64 : Shape := ⟨2, ![2000000, 64]⟩
abbrev S16384x1 : Shape := ⟨2, ![16384, 1]⟩
abbrev S16384x64 : Shape := ⟨2, ![16384, 64]⟩

abbrev nBuf : Space → Nat
  | .hbm => 88
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S1000000x64, .f32⟩
  | .hbm, ⟨2, _⟩ => ⟨S16384, .i32⟩
  | .hbm, ⟨3, _⟩ => ⟨S16384, .i32⟩
  | .hbm, ⟨4, _⟩ => ⟨S2000000, .i32⟩
  | .hbm, ⟨5, _⟩ => ⟨S2000000, .i32⟩
  | .hbm, ⟨6, _⟩ => ⟨S1000000x64, .f32⟩
  | .hbm, ⟨7, _⟩ => ⟨S_, .f32⟩
  | .hbm, ⟨8, _⟩ => ⟨S1000000, .f32⟩
  | .hbm, ⟨9, _⟩ => ⟨S1000000x1, .f32⟩
  | .hbm, ⟨10, _⟩ => ⟨S1000000x1, .f32⟩
  | .hbm, ⟨11, _⟩ => ⟨S_, .f32⟩
  | .hbm, ⟨12, _⟩ => ⟨S1000000x1, .f32⟩
  | .hbm, ⟨13, _⟩ => ⟨S1000000x1, .f32⟩
  | .hbm, ⟨14, _⟩ => ⟨S_, .f32⟩
  | .hbm, ⟨15, _⟩ => ⟨S1000000x1, .f32⟩
  | .hbm, ⟨16, _⟩ => ⟨S1000000x1, .f32⟩
  | .hbm, ⟨17, _⟩ => ⟨S_, .f32⟩
  | .hbm, ⟨18, _⟩ => ⟨S1000000x1, .f32⟩
  | .hbm, ⟨19, _⟩ => ⟨S1000000x1, .f32⟩
  | .hbm, ⟨20, _⟩ => ⟨S1000000x64, .f32⟩
  | .hbm, ⟨21, _⟩ => ⟨S1000000x64, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x64, .f32⟩
  | .hbm, ⟨31, _⟩ => ⟨S_, .f32⟩
  | .hbm, ⟨32, _⟩ => ⟨S1000000x64, .f32⟩
  | .hbm, ⟨33, _⟩ => ⟨S2000000x1, .i32⟩
  | .hbm, ⟨34, _⟩ => ⟨S1000000x64, .f32⟩
  | .hbm, ⟨35, _⟩ => ⟨S2000000x64, .f32⟩
  | .hbm, ⟨36, _⟩ => ⟨S_, .f32⟩
  | .hbm, ⟨37, _⟩ => ⟨S1000000x64, .f32⟩
  | .hbm, ⟨38, _⟩ => ⟨S2000000x1, .i32⟩
  | .hbm, ⟨39, _⟩ => ⟨S1000000x64, .f32⟩
  | .hbm, ⟨40, _⟩ => ⟨S1000000x64, .f32⟩
  | .hbm, ⟨41, _⟩ => ⟨S1000000x64, .f32⟩
  | .hbm, ⟨42, _⟩ => ⟨S1000000x64, .f32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x64, .f32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S16384x64, .f32⟩
  | .hbm, ⟨61, _⟩ => ⟨S16384x64, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x64, .f32⟩
  | .hbm, ⟨76, _⟩ => ⟨S16384x64, .f32⟩
  | .hbm, ⟨77, _⟩ => ⟨S16384x64, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S_, .f32⟩
  | .hbm, ⟨86, _⟩ => ⟨S16384, .f32⟩
  | .hbm, ⟨87, _⟩ => ⟨S16384, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_v0 : Ref sig .tc := ⟨.hbm, 61, rfl⟩
abbrev main_call1_cst : Ref sig .tc := ⟨.hbm, 62, rfl⟩
abbrev main_call1_v1 : Ref sig .tc := ⟨.hbm, 63, rfl⟩
abbrev main_call1_v2 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_cst_14 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]

class Facts₀ : Prop where
  reducesTo_S1000000x64_S1000000_d1 : S1000000x64.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S1000000x64 : S_.BroadcastsInDim S1000000x64 (![] : Fin 0 → Fin S1000000x64.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  gather_S1000000x64_S2000000x1_S2000000x64_1_0_n_n_0_1_164_wf : GatherDims.WF S1000000x64 S2000000x1 S2000000x64 [1] [0] [] [0] [] 1 ![1, 64]
  scatter_S1000000x64_S2000000x1_S2000000x64_1_0_0_1_wf : ScatterDims.WF S1000000x64 S2000000x1 S2000000x64 [1] [0] [0] 1
  gather_S1000000x64_S16384x1_S16384x64_1_0_n_n_0_1_164_wf : GatherDims.WF S1000000x64 S16384x1 S16384x64 [1] [0] [] [0] [] 1 ![1, 64]
  gather_S500000x64_S16384x1_S16384x64_1_0_n_n_0_1_164_wf : GatherDims.WF S500000x64 S16384x1 S16384x64 [1] [0] [] [0] [] 1 ![1, 64]

variable [Facts₀]

def gather_S1000000x64_S2000000x1_S2000000x64_1_0_n_n_0_1_164 : GatherDims S1000000x64 S2000000x1 S2000000x64 where
  offsetDims := [1]
  collapsedSliceDims := [0]
  operandBatchingDims := []
  startIndicesBatchingDims := []
  startIndexMap := [0]
  indexVectorDim := 1
  sliceSizes := ![1, 64]
  wf := gather_S1000000x64_S2000000x1_S2000000x64_1_0_n_n_0_1_164_wf
def scatter_S1000000x64_S2000000x1_S2000000x64_1_0_0_1 : ScatterDims S1000000x64 S2000000x1 S2000000x64 where
  updateWindowDims := [1]
  insertedWindowDims := [0]
  scatterDimsToOperandDims := [0]
  indexVectorDim := 1
  wf := scatter_S1000000x64_S2000000x1_S2000000x64_1_0_0_1_wf
def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf

class Facts : Prop extends Facts₀ where

variable [Facts]
-- ==== Proof.PreRange.lean ====
/-
  The precondition read: beside the finiteness of the two float tables it says that every entry of the index vectors
  u, i and edge_src, read as a signed 32-bit integer, is at least 0 and below the number of rows of the table it
  indexes (500000 user rows; 1000000 entity rows). Each "all" is a reduction by "and" to one truth value; the
  conjunction of five such values is 1 exactly when each is, and a reduction by "and" that is 1 had a 1 at every entry.
-/
import proofs.«415022_j4870492913893_3_alg».proof.Proof.Gen.Pre_finite_inputs
import Idealize.ShloMosaic.Lib.ReduceAll
import Idealize.ShloMosaic.Lib.Affine
import Idealize.ShloMosaic.Lib.ValueIdx
import Idealize.ShloMosaic.Lib.StableHlo.Predicate

set_option maxRecDepth 16384

noncomputable section

namespace Cert.PreRange

open Cert.Pre_finite_inputs
open Idealize.ShloMosaic Idealize.ShloMosaic.ValueIdx

instance : Subsingleton S_.Idx := ⟨fun a b => funext fun d => d.elim0⟩

theorem ofBool_eq_one (b : Bool) : BitVec.ofBool b = 1#1 ↔ b = true := by cases b <;> decide

/-- A word that is at least 0 and below n as a signed integer (n below 2^31) has its integer value in [0, n). -/
theorem toInt_range (w : BitVec 32) (n : Nat) (hn : n < 2 ^ 31) (h0 : IntOp.cmpi .sge w (0#32) = 1#1)
    (h1 : IntOp.cmpi .slt w (BitVec.ofNat 32 n) = 1#1) : 0 ≤ w.toInt ∧ w.toInt < (n : Int) := by
  unfold IntOp.cmpi at h0 h1
  rw [ofBool_eq_one] at h0 h1
  simp only [BitVec.slt, BitVec.sle, decide_eq_true_eq] at h0 h1
  rw [StableHlo.Predicate.toInt_ofNat_small n hn] at h1
  have h00 : (0#32 : BitVec 32).toInt = 0 := by decide
  rw [h00] at h0
  exact ⟨h0, h1⟩

theorem ranges {F : FTy → Type} [FloatOps F] (a0 : FVec F S500000x64 .f32) (a1 : FVec F S1000000x64 .f32)
    (a2 a3 : IVec S16384 32) (a4 a5 : IVec S2000000 32)
    (h : fn (F := F) a0 a1 a2 a3 a4 a5 = fun _ => 1#1) :
    (∀ b : Fin 16384, 0 ≤ (a2 (ix1 b)).toInt ∧ (a2 (ix1 b)).toInt < 500000)
    ∧ (∀ b : Fin 16384, 0 ≤ (a3 (ix1 b)).toInt ∧ (a3 (ix1 b)).toInt < 1000000)
    ∧ (∀ e : Fin 2000000, 0 ≤ (a4 (ix1 e)).toInt ∧ (a4 (ix1 e)).toInt < 1000000) := by
  have e := congrFun h ix0
  unfold fn at e
  dsimp only [fn_part1] at e
  -- the conjunction of the five truth values is 1: each is
  have e' : IntOp.andi (IntOp.andi (IntOp.andi (IntOp.andi _ _) _) _) _ = 1#1 := e
  obtain ⟨e4, hsrc⟩ := IntOp.andi_eq_one.1 e'
  obtain ⟨e3, hi⟩ := IntOp.andi_eq_one.1 e4
  obtain ⟨-, hu⟩ := IntOp.andi_eq_one.1 e3
  refine ⟨fun b => ?_, fun b => ?_, fun b => ?_⟩
  · have hb := Host.reduce_andi_all _ _ _ _ _ hu (ix1 b)
    have hb' : IntOp.andi (IntOp.cmpi .sge (a2 (ix1 b)) (0#32)) (IntOp.cmpi .slt (a2 (ix1 b)) (BitVec.ofNat 32 500000)) = 1#1 := hb
    obtain ⟨h0, h1⟩ := IntOp.andi_eq_one.1 hb'
    exact toInt_range _ 500000 (by decide) h0 h1
  · have hb := Host.reduce_andi_all _ _ _ _ _ hi (ix1 b)
    have hb' : IntOp.andi (IntOp.cmpi .sge (a3 (ix1 b)) (0#32)) (IntOp.cmpi .slt (a3 (ix1 b)) (BitVec.ofNat 32 1000000)) = 1#1 := hb
    obtain ⟨h0, h1⟩ := IntOp.andi_eq_one.1 hb'
    exact toInt_range _ 1000000 (by decide) h0 h1
  · have hb := Host.reduce_andi_all _ _ _ _ _ hsrc (ix1 b)
    have hb' : IntOp.andi (IntOp.cmpi .sge (a4 (ix1 b)) (0#32)) (IntOp.cmpi .slt (a4 (ix1 b)) (BitVec.ofNat 32 1000000)) = 1#1 := hb
    obtain ⟨h0, h1⟩ := IntOp.andi_eq_one.1 hb'
    exact toInt_range _ 1000000 (by decide) h0 h1

end Cert.PreRange

end
-- ==== Proof.Spec.lean ====
/-
  The mathematics both programs compute, stated once over the extended reals and over plain index functions.

  A row r of 64 extended reals is rescaled by  scale r = min 1 (1 / max ‖r‖ ε)  with ‖r‖ = √(Σ_k r_k²) and
  ε the f32 word nearest 1e-12: rows longer than 1 are brought back to length 1, shorter rows are kept.
  The score of a (user row, entity row, s row, sq row) quadruple is the logistic function of
  Σ_k renorm(user)_k · (s_k² − sq_k + renorm(entity)_k).
  Array-level versions (every row of an [N × 64] array rescaled; an array squared entry by entry; the rows of an
  array picked by a vector of row numbers, each read signed and clamped into the table) are stated for any
  number of rows, so that both programs' shapes are instances.
-/
import Idealize.ShloMosaic.PureOps.Ideal
import Idealize.ShloMosaic.PureOps.Ideal.Laws
import Idealize.ShloMosaic.Lib.ValueIdx

noncomputable section

namespace Cert.FMSpec

open Idealize.ShloMosaic Idealize.ShloMosaic.ValueIdx

/-- min 1 (1 / max ‖r‖ ε): the factor that brings a row longer than 1 back to length 1. -/
def scale (r : Fin 64 → EReal) : EReal :=
  min (Ideal.ofBits .f32 0x3F800000#32)
    (Ideal.div (Ideal.ofBits .f32 0x3F800000#32) (max (Ideal.sqrt (∑ k : Fin 64, r k * r k)) (Ideal.ofBits .f32 0x2B8CBCCC#32)))

/-- The rescaled row, entry q. -/
def renorm (r : Fin 64 → EReal) (q : Fin 64) : EReal := r q * scale r

/-- logistic (Σ_k renorm(usr)_k · (s_k² − sq_k + renorm(ent)_k)). -/
def score (usr ent s sq : Fin 64 → EReal) : EReal :=
  Ideal.logistic (∑ k : Fin 64, renorm usr k * (s k * s k - sq k + renorm ent k))

/-- An [N × 64] array of extended reals. -/
abbrev Arr (N : Nat) : Type := (⟨2, ![N, 64]⟩ : Shape).Idx → EReal

/-- Row p of an array. -/
def rowOf {N : Nat} (x : Arr N) (p : Fin N) : Fin 64 → EReal := fun k => x (ix2 p k)

/-- Every row rescaled. -/
def renormA {N : Nat} (x : Arr N) : Arr N :=
  fun j => renorm (rowOf x ⟨(j 0).val, (j 0).isLt⟩) ⟨(j 1).val, (j 1).isLt⟩

/-- Every entry squared. -/
def sqA {N : Nat} (x : Arr N) : Arr N := fun j => x j * x j

/-- The row number entry e of an index vector names in a table of N rows: read signed, clamped into the table. -/
def rowNo {N E : Nat} (hN : 0 < N) (idx : IVec ⟨1, ![E]⟩ 32) (e : Fin E) : Fin N :=
  ⟨min (idx (ix1 e)).toInt.toNat (N - 1), by omega⟩

theorem pos1000000 : 0 < 1000000 := by decide
theorem pos500000 : 0 < 500000 := by decide

/-- The rows of x the index vector names, in its order. -/
def rowsel {N E : Nat} (hN : 0 < N) (x : Arr N) (idx : IVec ⟨1, ![E]⟩ 32) : Arr E :=
  fun j => x (ix2 (rowNo hN idx ⟨(j 0).val, (j 0).isLt⟩) ⟨(j 1).val, (j 1).isLt⟩)

theorem renormA_apply {N : Nat} (x : Arr N) (p : Fin N) (q : Fin 64) : renormA x (ix2 p q) = renorm (rowOf x p) q := rfl

theorem sqA_apply {N : Nat} (x : Arr N) (j : (⟨2, ![N, 64]⟩ : Shape).Idx) : sqA x j = x j * x j := rfl

theorem rowsel_apply {N E : Nat} (hN : 0 < N) (x : Arr N) (idx : IVec ⟨1, ![E]⟩ 32) (e : Fin E) (q : Fin 64) :
    rowsel hN x idx (ix2 e q) = x (ix2 (rowNo hN idx e) q) := rfl

theorem rowOf_rowsel {N E : Nat} (hN : 0 < N) (x : Arr N) (idx : IVec ⟨1, ![E]⟩ 32) (e : Fin E) :
    rowOf (rowsel hN x idx) e = rowOf x (rowNo hN idx e) := rfl

/-- Rescaling is row by row, so it commutes with picking rows. -/
theorem renormA_rowsel {N E : Nat} (hN : 0 < N) (x : Arr N) (idx : IVec ⟨1, ![E]⟩ 32) :
    renormA (rowsel hN x idx) = rowsel hN (renormA x) idx := rfl

/-- The scores of a batch: row b of each of the four arrays. -/
def scores {B : Nat} (usr ent s sq : Arr B) : (⟨1, ![B]⟩ : Shape).Idx → EReal :=
  fun j => score (rowOf usr ⟨(j 0).val, (j 0).isLt⟩) (rowOf ent ⟨(j 0).val, (j 0).isLt⟩)
    (rowOf s ⟨(j 0).val, (j 0).isLt⟩) (rowOf sq ⟨(j 0).val, (j 0).isLt⟩)

theorem scores_apply {B : Nat} (usr ent s sq : Arr B) (b : Fin B) :
    scores usr ent s sq (ix1 b) = score (rowOf usr b) (rowOf ent b) (rowOf s b) (rowOf sq b) := rfl

/-- The same scores laid out as a [B × 1] column. -/
def scoresCol {B : Nat} (usr ent s sq : Arr B) : (⟨2, ![B, 1]⟩ : Shape).Idx → EReal :=
  fun j => score (rowOf usr ⟨(j 0).val, (j 0).isLt⟩) (rowOf ent ⟨(j 0).val, (j 0).isLt⟩)
    (rowOf s ⟨(j 0).val, (j 0).isLt⟩) (rowOf sq ⟨(j 0).val, (j 0).isLt⟩)

theorem scoresCol_apply {B : Nat} (usr ent s sq : Arr B) (b : Fin B) (z : Fin 1) :
    scoresCol usr ent s sq (ix2 b z) = score (rowOf usr b) (rowOf ent b) (rowOf s b) (rowOf sq b) := rfl

end Cert.FMSpec

end
-- ==== Proof.R0Value.lean ====
/-
  The first tiled pass, read as values. At each of its 250 grid points the pass loads a block of 8000 gathered edge rows
  and stores, through two output windows, the block with every row r rescaled by min 1 (1 / max ‖r‖ ε), and that
  block squared entry by entry. Read at an index, the first stored payload is entry q of row p times the row's factor
  (the lane sum Σ_k r_k² as a plain sum over the 64 lanes); the blocks of each output window tile its array (row r lies
  in block r / 8000), so after the pass the two output arrays are the rescaled input array and its entrywise square.
-/
import proofs.«415022_j4870492913893_3_alg».proof.Proof.Spec
import proofs.«415022_j4870492913893_3_alg».proof.Proof.Gen.KernelIdeal.Frame
import Idealize.ShloMosaic.Lib.Pipeline.Value
import Idealize.ShloMosaic.Lib.ValueLayout
set_option maxRecDepth 16384

noncomputable section

namespace Cert.KernelIdeal.R0Value

open Cert.KernelIdeal Cert.KernelIdeal.Gen Cert.FMSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The gathered edge rows as the first region finds them. -/
abbrev xin (c : Dev nD) : Arr 2000000 := V c main_v0

/-- A column [8000, 1] spread over the 64 lanes reads, at (p, q), the column's entry p. -/
theorem spread_col {α : Type} (v : S8000x1.Idx → α) (p : Fin 8000) (q : Fin 64) :
    broadcastTo S8000x64 v broadcasts_S8000x1_S8000x64 (ix2 p q) = v (ix2 p (0 : Fin 1)) :=
  broadcastTo_apply v _ (ix2 p q) (ix2 p (0 : Fin 1)) fun a => by
    match a with
    | ⟨0, _⟩ => rfl
    | ⟨1, _⟩ => rfl

/-- A vector of 8000 entries stood up as a column reads, at (p, 0), entry p. -/
theorem col_of_vec {α : Type} (v : S8000.Idx → α) (p : Fin 8000) (z : Fin 1) :
    shapeCast S8000x1 v shapeCasts_S8000_S8000x1 (ix2 p z) = v (ix1 p) :=
  shapeCast_apply v _ _ _ (by
    have hz : z.val = 0 := by omega
    rw [Shape.rowMajor_val_two, Shape.rowMajor_val_one]
    show p.val = p.val * 1 + z.val
    omega)

/-- The sum over the 64 lanes, read at row p. -/
theorem lane_sum (x : FVec Ideal S8000x64 .f32) (hφ : FKind.Formats .f32)
    (hacc : (0x00000000#32 : BitVec 32) = 0x00000000#32) (p : Fin 8000) :
    multiReduction .add [1] S8000 x 0x00000000#32 reduces_S8000x64_S8000 hφ hacc (ix1 p) = ∑ k : Fin 64, x (ix2 p k) := by
  refine (Ideal.multiReduction_add_single x 0x00000000#32 reduces_S8000x64_S8000 hφ hacc (ix1 p)).trans ?_
  refine Finset.sum_congr rfl fun k _ => congrArg x ?_
  funext a
  match a with
  | ⟨0, _⟩ => rfl
  | ⟨1, _⟩ => rfl

/-- The square root of a vector, entry by entry. -/
theorem sqrt_at {s : Shape} {φ : FTy} (a : FVec Ideal s φ) (i : s.Idx) : Idealize.ShloMosaic.sqrt a i = Ideal.sqrt (a i) := rfl

/-- The first payload at (p, q): entry q of row p of the block, times min 1 (1 / max ‖row p‖ ε). -/
theorem pay1_apply (x0 : Vec Ideal S8000x64 .f32) (p : Fin 8000) (q : Fin 64) :
    k0_pay1 x0 (ix2 p q) = renorm (fun k => x0 (ix2 p k)) q := by
  unfold k0_pay1
  simp only [mulf_apply, shapeCast_self, spread_col, minimumf_apply, divf_apply, maximumf_apply, broadcast_apply]
  rw [sqrt_at, col_of_vec, lane_sum]
  simp only [mulf_apply, Ideal.ofBits_def]
  rfl

/-- The second payload squares the first, entry by entry. -/
theorem pay2_apply (x0 : Vec Ideal S8000x64 .f32) (j : S8000x64.Idx) :
    k0_pay2 x0 j = k0_pay1 x0 j * k0_pay1 x0 j := by
  unfold k0_pay2
  rfl

/-- The first payload as a function of the block index: row (j 0) of the block rescaled, read at lane (j 1). -/
theorem pay1_eq (x0 : Vec Ideal S8000x64 .f32) :
    k0_pay1 x0 = fun j : S8000x64.Idx => renorm (fun k => x0 (ix2 (j 0) k)) (j 1) := by
  funext j
  obtain ⟨p, q, rfl⟩ : ∃ (p : Fin 8000) (q : Fin 64), j = ix2 p q := ⟨j 0, j 1, eq_ix2 j⟩
  exact pay1_apply x0 p q

/-- The offsets (0, 0) are the zero offsets. -/
theorem hz : (![0, 0] : Fin 2 → Nat) = fun _ => 0 := funext fun a => by fin_cases a <;> rfl

/-- The three windows move together: at every point the two outputs' block indices are the input's, the row-block
    index stays below 250 and the lane-block index is 0. -/
theorem idx_facts : ∀ t : Fin cfg0.N,
    win0_0.index t (0 : Fin 2) = win0_1.index t (0 : Fin 2) ∧ win0_0.index t (1 : Fin 2) = win0_1.index t (1 : Fin 2)
    ∧ win0_0.index t (0 : Fin 2) = win0_2.index t (0 : Fin 2) ∧ win0_0.index t (1 : Fin 2) = win0_2.index t (1 : Fin 2)
    ∧ win0_0.index t (0 : Fin 2) ≤ 249 ∧ win0_0.index t (1 : Fin 2) = 0 :=
  (by decide +kernel : ∀ t : Fin grid0.N, _)

/-- Every row block is some point's. -/
theorem idx_onto : ∀ b : Fin 250, ∃ t : Fin cfg0.N, win0_0.index t = ![b.val, 0] :=
  (by decide +kernel : ∀ b : Fin 250, ∃ t : Fin grid0.N, win0_0.index t = ![b.val, 0])

/-- The rescaled array at an index whose coordinates are (p, q). -/
theorem renormA_at (x : Arr 2000000) (i : S2000000x64.Idx) (p : Fin 2000000) (q : Fin 64)
    (hp : (i 0).val = p.val) (hq : (i 1).val = q.val) : renormA x i = renorm (rowOf x p) q := by
  obtain rfl : i = ix2 p q := Shape.idx_ext₂ hp hq
  rfl

/-- The input window's block at a point, read at (a, k): the array at row (block index · 8000 + a), lane k. -/
theorem iblk_at (c : Dev nD) (t : Fin cfg0.N) (a : Fin 8000) (k : Fin 64) (r : Fin 2000000)
    (hr : r.val = win0_0.index t (0 : Fin 2) * 8000 + a.val) :
    iblk0 V c 0 t (ix2 a k) = xin V c (ix2 r k) := by
  obtain ⟨-, -, -, -, -, h1⟩ := idx_facts t
  unfold iblk0
  rw [View.read_apply]
  show V c main_v0 _ = V c main_v0 _
  congr 1
  funext ax
  apply Fin.ext
  match ax with
  | ⟨0, _⟩ => show win0_0.index t (0 : Fin 2) * 8000 + 1 * a.val = r.val; omega
  | ⟨1, _⟩ => show win0_0.index t (1 : Fin 2) * 64 + 1 * k.val = k.val; omega

/-- The second payload as a function of the block index. -/
theorem pay2_eq (x0 : Vec Ideal S8000x64 .f32) :
    k0_pay2 x0 = fun j : S8000x64.Idx =>
      renorm (fun k => x0 (ix2 (j 0) k)) (j 1) * renorm (fun k => x0 (ix2 (j 0) k)) (j 1) := by
  funext j
  rw [pay2_apply, pay1_eq]

/-- Row a of the input block at a point, rescaled and read at lane q, is the rescaled array at the index whose row is
    (block index · 8000 + a) and whose lane is q. -/
theorem renorm_blk (c : Dev nD) (t : Fin cfg0.N) (a : Fin 8000) (q : Fin 64) (i : S2000000x64.Idx)
    (hi0 : (i 0).val = win0_0.index t (0 : Fin 2) * 8000 + a.val) (hi1 : (i 1).val = q.val) :
    renorm (fun k => iblk0 V c 0 t (ix2 a k)) q = renormA (xin V c) i := by
  obtain ⟨-, -, -, -, hb, -⟩ := idx_facts t
  have ha : a.val < 8000 := a.isLt
  refine Eq.trans ?_ (renormA_at (xin V c) i ⟨win0_0.index t (0 : Fin 2) * 8000 + a.val, by omega⟩ q hi0 hi1).symm
  congr 1
  funext k
  exact iblk_at V c t a k _ rfl

/-- What a point writes back through the first output window is its block of the rescaled array. -/
theorem flushed1_eq (c : Dev nD) (t : Fin cfg0.N) :
    (dat0 (F := Ideal) V c).flushed 1 t = ((cfg0.win 1).blk t).view.read (Elt Ideal) (renormA (xin V c)) := by
  show (cfg0.win 1).cut (grid0.coords t) ((dat0 V c).after 1 t) = _
  rw [after0_1]
  unfold out0_1
  rw [View.canon_unit_zero hz]
  simp only [View.ld_unit_zero (S := S8000x64) hz]
  rw [pay1_eq]
  obtain ⟨e0, e1, -, -, -, h1⟩ := idx_facts t
  funext j
  have hj0 : (j 0).val < 8000 := (j 0).isLt
  have hj1 : (j 1).val < 64 := (j 1).isLt
  have c0 : ((((cfg0.win 1).blk t).view.emb j) 0).val = win0_1.index t (0 : Fin 2) * 8000 + 1 * (j 0).val := rfl
  have c1 : ((((cfg0.win 1).blk t).view.emb j) 1).val = win0_1.index t (1 : Fin 2) * 64 + 1 * (j 1).val := rfl
  exact renorm_blk V c t ⟨(j 0).val, hj0⟩ ⟨(j 1).val, hj1⟩ _
    (by rw [c0]; show _ = win0_0.index t (0 : Fin 2) * 8000 + (j 0).val; omega)
    (by rw [c1]; show _ = (j 1).val; omega)

/-- What a point writes back through the second output window is its block of the rescaled array squared. -/
theorem flushed2_eq (c : Dev nD) (t : Fin cfg0.N) :
    (dat0 (F := Ideal) V c).flushed 2 t = ((cfg0.win 2).blk t).view.read (Elt Ideal) (sqA (renormA (xin V c))) := by
  show (cfg0.win 2).cut (grid0.coords t) ((dat0 V c).after 2 t) = _
  rw [after0_2]
  unfold out0_2
  rw [View.canon_unit_zero hz]
  simp only [View.ld_unit_zero (S := S8000x64) hz]
  rw [pay2_eq]
  obtain ⟨-, -, e0, e1, -, h1⟩ := idx_facts t
  funext j
  have hj0 : (j 0).val < 8000 := (j 0).isLt
  have hj1 : (j 1).val < 64 := (j 1).isLt
  have c0 : ((((cfg0.win 2).blk t).view.emb j) 0).val = win0_2.index t (0 : Fin 2) * 8000 + 1 * (j 0).val := rfl
  have c1 : ((((cfg0.win 2).blk t).view.emb j) 1).val = win0_2.index t (1 : Fin 2) * 64 + 1 * (j 1).val := rfl
  have hr := renorm_blk V c t ⟨(j 0).val, hj0⟩ ⟨(j 1).val, hj1⟩ (((cfg0.win 2).blk t).view.emb j)
    (by rw [c0]; show _ = win0_0.index t (0 : Fin 2) * 8000 + (j 0).val; omega)
    (by rw [c1]; show _ = (j 1).val; omega)
  show renorm (fun k => iblk0 V c 0 t (ix2 ⟨(j 0).val, hj0⟩ k)) ⟨(j 1).val, hj1⟩
      * renorm (fun k => iblk0 V c 0 t (ix2 ⟨(j 0).val, hj0⟩ k)) ⟨(j 1).val, hj1⟩
    = sqA (renormA (xin V c)) (((cfg0.win 2).blk t).view.emb j)
  rw [hr, sqA_apply]

/-- An array index is in a point's block of the first output window iff each coordinate is in the block's range. -/
theorem mem_blk1 (t : Fin cfg0.N) (i : S2000000x64.Idx) :
    i ∈ ((cfg0.win 1).blk t).view.set ↔ ∀ a : Fin 2, win0_1.index t a * S8000x64.size a ≤ (i a).val
      ∧ (i a).val < win0_1.index t a * S8000x64.size a + S8000x64.size a := by
  show i ∈ ((View.whole main_v1_0).slice (win0_1.rect t)).set ↔ _
  rw [View.set_slice_whole, Rect.mem_set_unit]
  exact Iff.rfl

/-- The same for the second output window. -/
theorem mem_blk2 (t : Fin cfg0.N) (i : S2000000x64.Idx) :
    i ∈ ((cfg0.win 2).blk t).view.set ↔ ∀ a : Fin 2, win0_2.index t a * S8000x64.size a ≤ (i a).val
      ∧ (i a).val < win0_2.index t a * S8000x64.size a + S8000x64.size a := by
  show i ∈ ((View.whole main_v1_1).slice (win0_2.rect t)).set ↔ _
  rw [View.set_slice_whole, Rect.mem_set_unit]
  exact Iff.rfl

/-- Row r lies in the block of the point whose row-block index is r / 8000, and every point writes back: the blocks
    of the first output window cover its array. -/
theorem cover1 (i : S2000000x64.Idx) :
    ∃ t : Fin cfg0.N, (cfg0.win 1).flush t = true ∧ i ∈ ((cfg0.win 1).blk t).view.set := by
  have hi0 : (i 0).val < 2000000 := (i 0).isLt
  have hi1 : (i 1).val < 64 := (i 1).isLt
  obtain ⟨t, ht⟩ := idx_onto ⟨(i 0).val / 8000, by omega⟩
  obtain ⟨e0, e1, -, -, -, -⟩ := idx_facts t
  have q0 : win0_0.index t (0 : Fin 2) = (i 0).val / 8000 := congrFun ht 0
  have q1 : win0_0.index t (1 : Fin 2) = 0 := congrFun ht 1
  refine ⟨t, flush0_1 t, ?_⟩
  rw [mem_blk1]
  intro a
  match a with
  | ⟨0, _⟩ =>
    show win0_1.index t (0 : Fin 2) * 8000 ≤ (i 0).val ∧ (i 0).val < win0_1.index t (0 : Fin 2) * 8000 + 8000
    omega
  | ⟨1, _⟩ =>
    show win0_1.index t (1 : Fin 2) * 64 ≤ (i 1).val ∧ (i 1).val < win0_1.index t (1 : Fin 2) * 64 + 64
    omega

/-- The blocks of the second output window cover its array in the same way. -/
theorem cover2 (i : S2000000x64.Idx) :
    ∃ t : Fin cfg0.N, (cfg0.win 2).flush t = true ∧ i ∈ ((cfg0.win 2).blk t).view.set := by
  have hi0 : (i 0).val < 2000000 := (i 0).isLt
  have hi1 : (i 1).val < 64 := (i 1).isLt
  obtain ⟨t, ht⟩ := idx_onto ⟨(i 0).val / 8000, by omega⟩
  obtain ⟨-, -, e0, e1, -, -⟩ := idx_facts t
  have q0 : win0_0.index t (0 : Fin 2) = (i 0).val / 8000 := congrFun ht 0
  have q1 : win0_0.index t (1 : Fin 2) = 0 := congrFun ht 1
  refine ⟨t, flush0_2 t, ?_⟩
  rw [mem_blk2]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 64 ≤ (i 1).val ∧ (i 1).val < win0_2.index t (1 : Fin 2) * 64 + 64
    omega

theorem out1 (c : Dev nD) : (dat0 (F := Ideal) V c).arrAt 1 cfg0.N = renormA (xin V c) :=
  (dat0 V c).arrAt_eq_of_cover 1 (renormA (xin V c)) (fun t _ => flushed1_eq V c t) cover1

theorem out2 (c : Dev nD) : (dat0 (F := Ideal) V c).arrAt 2 cfg0.N = sqA (renormA (xin V c)) :=
  (dat0 V c).arrAt_eq_of_cover 2 (sqA (renormA (xin V c))) (fun t _ => flushed2_eq V c t) cover2

end Cert.KernelIdeal.R0Value

end
-- ==== Proof.R1Value.lean ====
/-
  The second tiled pass, read as values. At each of its 8 grid points the pass loads four blocks of 2048 rows — entity
  rows, s rows, sq rows, user rows of the batch — and stores one [2048 × 1] block: for every row the logistic of
  Σ_k renorm(user)_k · (s_k² − sq_k + renorm(entity)_k). Read at an index the stored payload is that score of the four
  rows (each lane sum a plain sum over the 64 lanes); the output blocks tile the [16384 × 1] array (row r lies in block
  r / 2048), so after the pass the output array is the column of the batch's scores.
-/
import proofs.«415022_j4870492913893_3_alg».proof.Proof.Spec
import proofs.«415022_j4870492913893_3_alg».proof.Proof.Gen.KernelIdeal.Frame
import Idealize.ShloMosaic.Lib.Pipeline.Value
import Idealize.ShloMosaic.Lib.ValueLayout
set_option maxRecDepth 16384

noncomputable section

namespace Cert.KernelIdeal.R1Value

open Cert.KernelIdeal Cert.KernelIdeal.Gen Cert.FMSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The four gathered batch arrays as the second region finds them: entity rows, s rows, sq rows, user rows. -/
abbrev ent (c : Dev nD) : Arr 16384 := V c main_v8
abbrev sIn (c : Dev nD) : Arr 16384 := V c main_v9
abbrev sqIn (c : Dev nD) : Arr 16384 := V c main_v10
abbrev usr (c : Dev nD) : Arr 16384 := V c main_v11

/-! ## The body's payload, one row at a time -/

/-- A vector of `a` entries viewed as an `a × 1` column reads, at `(p, z)`, entry `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- An `a × 1` column spread over `b` lanes reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- The sum over the 64 lanes of row `p` of a 2048 × 64 block. -/
theorem laneSum_apply (src : FVec Ideal S2048x64 .f32) (h : S2048x64.Reduces [1] S2048) (hφ : FKind.Formats .f32)
    (hacc : (0x00000000#32 : BitVec 32) = 0x00000000#32) (p : Fin 2048) :
    multiReduction (F := Ideal) .add [1] S2048 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- A square root, and a logistic, of a block read entry by entry. -/
theorem sqrt_apply {s : Shape} {φ : FTy} (a : FVec Ideal s φ) (i : s.Idx) : sqrt a i = Ideal.sqrt (a i) := rfl
theorem logistic_apply {s : Shape} {φ : FTy} (a : FVec Ideal s φ) (i : s.Idx) : logistic a i = Ideal.logistic (a i) := rfl

/-- THE FACTOR OF ROW `p`: what the body computes from a block `x` as min 1 (1 / max ‖row‖ ε), a column of the
    block's height, is at row `p` the specification's `scale` of that row. -/
theorem scaleCol_apply (x : FVec Ideal S2048x64 .f32) (hr : S2048x64.Reduces [1] S2048) (hc : S2048.ShapeCasts S2048x1)
    (hφ : FKind.Formats .f32) (hacc : (0x00000000#32 : BitVec 32) = 0x00000000#32) (p : Fin 2048) (z : Fin 1) :
    minimumf (broadcast S2048x1 (Scalar.ofBits (F := Ideal) .f32 0x3F800000#32))
      (divf (broadcast S2048x1 (Scalar.ofBits (F := Ideal) .f32 0x3F800000#32))
        (maximumf (sqrt (shapeCast S2048x1 (multiReduction (F := Ideal) .add [1] S2048 (mulf x x) 0x00000000#32 hr hφ hacc) hc))
          (broadcast S2048x1 (Scalar.ofBits (F := Ideal) .f32 0x2B8CBCCC#32)))) (ix2 p z)
      = scale (fun k => x (ix2 p k)) := by
  unfold scale
  rw [minimumf_apply, divf_apply, maximumf_apply, sqrt_apply, shapeCast_a_a1_apply, laneSum_apply]
  rfl

/-- THE RESCALED BLOCK: the block times its column of factors spread over the lanes is, at `(p, q)`, entry `q` of the
    rescaled row `p`. -/
theorem renormBlk_apply (x : FVec Ideal S2048x64 .f32) (hr : S2048x64.Reduces [1] S2048) (hc : S2048.ShapeCasts S2048x1)
    (hb : S2048x1.Broadcasts S2048x64)
    (hφ : FKind.Formats .f32) (hacc : (0x00000000#32 : BitVec 32) = 0x00000000#32) (p : Fin 2048) (q : Fin 64) :
    mulf x (broadcastTo S2048x64
      (minimumf (broadcast S2048x1 (Scalar.ofBits (F := Ideal) .f32 0x3F800000#32))
        (divf (broadcast S2048x1 (Scalar.ofBits (F := Ideal) .f32 0x3F800000#32))
          (maximumf (sqrt (shapeCast S2048x1 (multiReduction (F := Ideal) .add [1] S2048 (mulf x x) 0x00000000#32 hr hφ hacc) hc))
            (broadcast S2048x1 (Scalar.ofBits (F := Ideal) .f32 0x2B8CBCCC#32))))) hb) (ix2 p q)
      = renorm (fun k => x (ix2 p k)) q := by
  rw [mulf_apply, broadcastTo_a1_ab_apply, scaleCol_apply]
  rfl

/-- THE PAYLOAD AT ROW `p`: the logistic of Σ_k renorm(u)_k · (s_k² − sq_k + renorm(e)_k), the rows read off the four
    blocks. -/
theorem pay_apply (e s sq u : FVec Ideal S2048x64 .f32) (p : Fin 2048) (z : Fin 1) :
    k1_pay1 (F := Ideal) e s sq u (ix2 p z)
      = score (fun k => u (ix2 p k)) (fun k => e (ix2 p k)) (fun k => s (ix2 p k)) (fun k => sq (ix2 p k)) := by
  unfold k1_pay1 score
  simp only [shapeCast_self]
  rw [logistic_apply, shapeCast_a_a1_apply, laneSum_apply]
  refine congrArg Ideal.logistic (Finset.sum_congr rfl fun k _ => ?_)
  rw [mulf_apply, renormBlk_apply, addf_apply, subf_apply, mulf_apply, renormBlk_apply]

/-! ## From the blocks to the array -/

theorem zeroOffsets : (![0, 0] : Fin 2 → Nat) = fun _ => 0 := funext fun a => by fin_cases a <;> rfl

/-- The five windows move together: at grid point `t` each one's block is block `t` along the rows and the only
    block along the lanes (decided over the 8 points). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of the entity block at point `t` is row `t · 2048 + p` of the entity array. -/
theorem entRow (c : Dev nD) (t : Fin cfg1.N) (p : Fin 2048) (r : Fin 16384) (hr : r.val = t.val * 2048 + p.val) :
    (fun k : Fin 64 => iblk1 (F := Ideal) V c 0 t (ix2 p k)) = rowOf (ent V c) r := by
  obtain ⟨e0, e1, -⟩ := blockIndex t
  funext k
  show V c main_v8 (((cfg1.win 0).blk t).view.emb (ix2 p k)) = V c main_v8 (ix2 r k)
  refine congrArg (V c main_v8) (funext fun a => Fin.ext ?_)
  match a with
  | ⟨0, _⟩ => show win1_0.index t (0 : Fin 2) * 2048 + 1 * p.val = r.val; omega
  | ⟨1, _⟩ => show win1_0.index t (1 : Fin 2) * 64 + 1 * k.val = k.val; omega

/-- Row `p` of the s block at point `t` is row `t · 2048 + p` of the s array. -/
theorem sRow (c : Dev nD) (t : Fin cfg1.N) (p : Fin 2048) (r : Fin 16384) (hr : r.val = t.val * 2048 + p.val) :
    (fun k : Fin 64 => iblk1 (F := Ideal) V c 1 t (ix2 p k)) = rowOf (sIn V c) r := by
  obtain ⟨-, -, e0, e1, -⟩ := blockIndex t
  funext k
  show V c main_v9 (((cfg1.win 1).blk t).view.emb (ix2 p k)) = V c main_v9 (ix2 r k)
  refine congrArg (V c main_v9) (funext fun a => Fin.ext ?_)
  match a with
  | ⟨0, _⟩ => show win1_1.index t (0 : Fin 2) * 2048 + 1 * p.val = r.val; omega
  | ⟨1, _⟩ => show win1_1.index t (1 : Fin 2) * 64 + 1 * k.val = k.val; omega

/-- Row `p` of the sq block at point `t` is row `t · 2048 + p` of the sq array. -/
theorem sqRow (c : Dev nD) (t : Fin cfg1.N) (p : Fin 2048) (r : Fin 16384) (hr : r.val = t.val * 2048 + p.val) :
    (fun k : Fin 64 => iblk1 (F := Ideal) V c 2 t (ix2 p k)) = rowOf (sqIn V c) r := by
  obtain ⟨-, -, -, -, e0, e1, -⟩ := blockIndex t
  funext k
  show V c main_v10 (((cfg1.win 2).blk t).view.emb (ix2 p k)) = V c main_v10 (ix2 r k)
  refine congrArg (V c main_v10) (funext fun a => Fin.ext ?_)
  match a with
  | ⟨0, _⟩ => show win1_2.index t (0 : Fin 2) * 2048 + 1 * p.val = r.val; omega
  | ⟨1, _⟩ => show win1_2.index t (1 : Fin 2) * 64 + 1 * k.val = k.val; omega

/-- Row `p` of the user block at point `t` is row `t · 2048 + p` of the user array. -/
theorem usrRow (c : Dev nD) (t : Fin cfg1.N) (p : Fin 2048) (r : Fin 16384) (hr : r.val = t.val * 2048 + p.val) :
    (fun k : Fin 64 => iblk1 (F := Ideal) V c 3 t (ix2 p k)) = rowOf (usr V c) r := by
  obtain ⟨-, -, -, -, -, -, e0, e1, -⟩ := blockIndex t
  funext k
  show V c main_v11 (((cfg1.win 3).blk t).view.emb (ix2 p k)) = V c main_v11 (ix2 r k)
  refine congrArg (V c main_v11) (funext fun a => Fin.ext ?_)
  match a with
  | ⟨0, _⟩ => show win1_3.index t (0 : Fin 2) * 2048 + 1 * p.val = r.val; omega
  | ⟨1, _⟩ => show win1_3.index t (1 : Fin 2) * 64 + 1 * k.val = k.val; omega

/-- The body's payload of the four blocks at point `t`, at an entry `j` of the output block, is the score of the
    batch row that entry sits at in the output array. -/
theorem payBlock (c : Dev nD) (t : Fin cfg1.N) (j : S2048x1.Idx) :
    k1_pay1 (F := Ideal) (iblk1 V c 0 t) (iblk1 V c 1 t) (iblk1 V c 2 t) (iblk1 V c 3 t) j
      = scoresCol (usr V c) (ent V c) (sIn V c) (sqIn V c) (((cfg1.win 4).blk t).view.emb j) := by
  obtain ⟨p, z, rfl⟩ : ∃ (p : Fin 2048) (z : Fin 1), j = ix2 p z := ⟨j 0, j 1, eq_ix2 j⟩
  obtain ⟨-, -, -, -, -, -, -, -, e0, e1⟩ := blockIndex t
  have ht : t.val < 8 := Nat.lt_of_lt_of_eq t.isLt N_1
  have hr : t.val * 2048 + p.val < 16384 := by have := p.isLt; omega
  have hemb : ((cfg1.win 4).blk t).view.emb (ix2 p z) = ix2 (⟨t.val * 2048 + p.val, hr⟩ : Fin 16384) z := by
    funext a; apply Fin.ext
    match a with
    | ⟨0, _⟩ => show win1_4.index t (0 : Fin 2) * 2048 + 1 * p.val = t.val * 2048 + p.val; omega
    | ⟨1, _⟩ => show win1_4.index t (1 : Fin 2) * 1 + 1 * z.val = z.val; omega
  rw [hemb, scoresCol_apply, ← usrRow V c t p _ rfl, ← entRow V c t p _ rfl, ← sRow V c t p _ rfl, ← sqRow V c t p _ rfl]
  exact pay_apply _ _ _ _ p z

/-- WHAT POINT `t` WRITES BACK is block `t` of the column of scores of the four arrays as the region finds them. -/
theorem flushed4_eq (c : Dev nD) (t : Fin cfg1.N) :
    (dat1 (F := Ideal) V c).flushed 4 t
      = ((cfg1.win 4).blk t).view.read (Elt Ideal) (scoresCol (usr V c) (ent V c) (sIn V c) (sqIn V c)) := by
  show (cfg1.win 4).cut (grid1.coords t) ((dat1 (F := Ideal) V c).after 4 t) = _
  rw [after1_4]
  unfold out1_4
  rw [View.canon_unit_zero zeroOffsets]
  simp only [View.ld_unit_zero (S := S2048x64) zeroOffsets]
  funext j
  exact payBlock V c t j

/-- An index of the output array is in point `t`'s block iff each coordinate is in the block's range on its axis. -/
theorem mem_blk4 (t : Fin cfg1.N) (i : S16384x1.Idx) :
    i ∈ ((cfg1.win 4).blk t).view.set ↔ ∀ a : Fin 2, win1_4.index t a * S2048x1.size a ≤ (i a).val ∧ (i a).val < win1_4.index t a * S2048x1.size a + S2048x1.size a := by
  show i ∈ ((View.whole main_v12).slice (win1_4.rect t)).set ↔ _
  rw [View.set_slice_whole, Rect.mem_set_unit]
  exact Iff.rfl

/-- Row `r` of the output array is in the block of point `r / 2048`, and every point writes its block back. -/
theorem cover4 (i : S16384x1.Idx) :
    ∃ t : Fin cfg1.N, (cfg1.win 4).flush t = true ∧ i ∈ ((cfg1.win 4).blk t).view.set := by
  have hi0 : (i 0).val < 16384 := (i 0).isLt
  have hi1 : (i 1).val < 1 := (i 1).isLt
  have hN : (i 0).val / 2048 < cfg1.N := Nat.lt_of_lt_of_eq (show (i 0).val / 2048 < 8 by omega) N_1.symm
  obtain ⟨-, -, -, -, -, -, -, -, e0, e1⟩ := blockIndex ⟨(i 0).val / 2048, hN⟩
  refine ⟨⟨(i 0).val / 2048, hN⟩, flush1_4 _, ?_⟩
  rw [mem_blk4]
  intro a
  match a with
  | ⟨0, _⟩ =>
    show win1_4.index ⟨(i 0).val / 2048, hN⟩ (0 : Fin 2) * 2048 ≤ (i 0).val ∧ (i 0).val < win1_4.index ⟨(i 0).val / 2048, hN⟩ (0 : Fin 2) * 2048 + 2048
    rw [e0]; show (i 0).val / 2048 * 2048 ≤ (i 0).val ∧ (i 0).val < (i 0).val / 2048 * 2048 + 2048; omega
  | ⟨1, _⟩ =>
    show win1_4.index ⟨(i 0).val / 2048, hN⟩ (1 : Fin 2) * 1 ≤ (i 1).val ∧ (i 1).val < win1_4.index ⟨(i 0).val / 2048, hN⟩ (1 : Fin 2) * 1 + 1
    rw [e1]; omega

/-- THE OUTPUT ARRAY after the region: the blocks of the 8 points tile its 16384 rows and each holds its block of the
    column of scores, so the array is that column. -/
theorem out4 (c : Dev nD) :
    (dat1 (F := Ideal) V c).arrAt 4 cfg1.N = scoresCol (usr V c) (ent V c) (sIn V c) (sqIn V c) := by
  exact (dat1 (F := Ideal) V c).arrAt_eq_of_cover 4 (scoresCol (usr V c) (ent V c) (sIn V c) (sqIn V c))
    (fun t _ => flushed4_eq V c t) cover4

end Cert.KernelIdeal.R1Value

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.LibTakeFill.lean ====
/-
  jnp.take of whole rows in its default out-of-range mode, as it reaches the host program: a negative row number is
  moved up once by the table's height; whole rows are gathered at the numbers so obtained (clamped into the table); and
  a row whose number is still outside [0, N − 1] is replaced by a fill value, through a mask that is the "and" of the two
  range tests reduced along the index vector's unit axis. When every row number lies in [0, N) to begin with, nothing
  is moved and nothing is filled: the result is the plain selection of rows. Stated for any table height N, width C
  and number E of row numbers, and for any vectors standing for the constants, so that every call site is an instance.
-/
import Idealize.ShloMosaic.PureOps.Ideal
import Idealize.ShloMosaic.PureOps.Contract
import Idealize.ShloMosaic.PureOps.Reduce
import Idealize.ShloMosaic.Lib.ValueIdx
import proofs.«415022_j4870492913893_3_alg».proof.Proof.LibRowGatherScatter

noncomputable section

namespace Idealize.ShloMosaic.TakeFill

open Idealize.ShloMosaic Idealize.ShloMosaic.ValueIdx

/-- A fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    have e : IntOp.andi 1#1 1#1 = (1#1 : BitVec 1) := by decide
    rw [e]
    exact foldl_andi_one f l (fun n hn => h n (List.mem_cons_of_mem _ hn))

/-- A reduction by "and", started at 1, of a mask that is 1 everywhere is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

theorem ofBool_true : BitVec.ofBool true = 1#1 := rfl
theorem ofBool_false : BitVec.ofBool false = 0#1 := rfl

/-- A nonnegative word is not below zero, ... -/
theorem slt_zero_of_nonneg (w : BitVec 32) (h : 0 ≤ w.toInt) : IntOp.cmpi .slt w 0#32 = 0#1 := by
  have h0 : (0#32 : BitVec 32).toInt = 0 := by decide
  have : w.slt 0#32 = false := by
    simp only [BitVec.slt, h0, decide_eq_false_iff_not]; omega
  show BitVec.ofBool (w.slt 0#32) = 0#1
  rw [this]; rfl

/-- ... is at least zero, ... -/
theorem sge_zero_of_nonneg (w : BitVec 32) (h : 0 ≤ w.toInt) : IntOp.cmpi .sge w 0#32 = 1#1 := by
  have h0 : (0#32 : BitVec 32).toInt = 0 := by decide
  have : (0#32 : BitVec 32).sle w = true := by
    simp only [BitVec.sle, h0, decide_eq_true_eq]; exact h
  show BitVec.ofBool ((0#32 : BitVec 32).sle w) = 1#1
  rw [this]; rfl

/-- ... and a word whose integer is at most another's compares so. -/
theorem sle_of_le (w hi : BitVec 32) (h : w.toInt ≤ hi.toInt) : IntOp.cmpi .sle w hi = 1#1 := by
  have : w.sle hi = true := by
    simp only [BitVec.sle, decide_eq_true_eq]; exact h
  show BitVec.ofBool (w.sle hi) = 1#1
  rw [this]; rfl

/-- A vector laid out as an [n × 1] column reads, at (p, ·), the vector at p. -/
theorem bcast_col_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A vector laid along the first axis of an [n × m] array (constant along each row) reads, at (p, q), the vector at p. -/
theorem bcast_rows_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- The take: with every row number in [0, N), entry (e, k) of the result is the table's entry (number e, k). -/
theorem take_fill_rows {α : Type} {N C E : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (bc : (⟨1, ![E]⟩ : Shape).BroadcastsInDim ⟨2, ![E, 1]⟩ ![0])
    (bm : (⟨1, ![E]⟩ : Shape).BroadcastsInDim ⟨2, ![E, C]⟩ ![0])
    {u : Shape} (hred : (⟨2, ![E, 1]⟩ : Shape).ReducesTo [1] ⟨1, ![E]⟩) (hu : 0 < u.numel)
    (x : (⟨2, ![N, C]⟩ : Shape).Idx → α) (fill : (⟨2, ![E, C]⟩ : Shape).Idx → α)
    (idx zero nv : IVec ⟨1, ![E]⟩ 32) (lo hi : IVec ⟨2, ![E, 1]⟩ 32) (init : u.Idx → BitVec 1)
    (hz : ∀ j, zero j = 0#32) (hlo : ∀ j, lo j = 0#32) (hhi : ∀ j, (hi j).toInt = (N : Int) - 1)
    (hinit : init (Shape.Idx.first hu) = 1#1)
    (hr : ∀ e : Fin E, 0 ≤ (idx (ix1 e)).toInt ∧ (idx (ix1 e)).toInt < N) :
    select (broadcastInDim ⟨2, ![E, C]⟩ ![0] bm
        (Host.reduce IntOp.andi
          (andi (cmpi .sge (broadcastInDim ⟨2, ![E, 1]⟩ ![0] bc (select (cmpi .slt idx zero) (addi idx nv) idx)) lo)
                (cmpi .sle (broadcastInDim ⟨2, ![E, 1]⟩ ![0] bc (select (cmpi .slt idx zero) (addi idx nv) idx)) hi))
          init hred hu))
      (Host.gather d x (broadcastInDim ⟨2, ![E, 1]⟩ ![0] bc (select (cmpi .slt idx zero) (addi idx nv) idx)))
      fill
    = fun j => x (ix2 (⟨min (idx (ix1 ⟨(j 0).val, (j 0).isLt⟩)).toInt.toNat (N - 1), by omega⟩ : Fin N) ⟨(j 1).val, (j 1).isLt⟩) := by
  -- no row number is negative, so none is moved
  have hwrap : select (cmpi .slt idx zero) (addi idx nv) idx = idx := by
    funext j
    show Scalar.select (IntOp.cmpi .slt (idx j) (zero j)) _ (idx j) = idx j
    rw [hz, slt_zero_of_nonneg _ (by rw [eq_ix1 j]; exact (hr _).1)]
    rfl
  rw [hwrap]
  -- the column of row numbers, read at (e, ·)
  have hcol : ∀ (e : Fin E) (z : Fin 1), broadcastInDim ⟨2, ![E, 1]⟩ ![0] bc idx (ix2 e z) = idx (ix1 e) :=
    fun e z => bcast_col_apply bc idx e z
  -- both range tests pass everywhere, so the mask is 1 everywhere
  have hmask : ∀ e : (⟨1, ![E]⟩ : Shape).Idx, Host.reduce IntOp.andi
      (andi (cmpi .sge (broadcastInDim ⟨2, ![E, 1]⟩ ![0] bc idx) lo) (cmpi .sle (broadcastInDim ⟨2, ![E, 1]⟩ ![0] bc idx) hi))
      init hred hu e = 1#1 := by
    refine reduce_andi_one _ _ hred hu hinit (fun i => ?_)
    obtain ⟨e, z, rfl⟩ : ∃ (e : Fin E) (z : Fin 1), i = ix2 e z := ⟨i 0, i 1, eq_ix2 i⟩
    show IntOp.andi (IntOp.cmpi .sge (broadcastInDim ⟨2, ![E, 1]⟩ ![0] bc idx (ix2 e z)) (lo (ix2 e z)))
      (IntOp.cmpi .sle (broadcastInDim ⟨2, ![E, 1]⟩ ![0] bc idx (ix2 e z)) (hi (ix2 e z))) = 1#1
    rw [hcol, hlo, sge_zero_of_nonneg _ (hr e).1, sle_of_le _ _ (by rw [hhi]; have := (hr e).2; omega)]
    decide
  funext j
  obtain ⟨e, k, rfl⟩ : ∃ (e : Fin E) (k : Fin C), j = ix2 e k := ⟨j 0, j 1, eq_ix2 j⟩
  show Scalar.select _ (Host.gather d x _ (ix2 e k)) (fill (ix2 e k)) = x (ix2 _ k)
  rw [bcast_rows_apply bm _ e k, hmask, RowOps.gather_rows_apply d hoff hcoll hob hsim hivd hss x _ e k hN]
  have hsel : ∀ (a b : α), Scalar.select (1#1) a b = a := fun _ _ => rfl
  rw [hsel]
  refine congrArg x (congrArg (fun r => ix2 r k) (Fin.ext ?_))
  show min (broadcastInDim ⟨2, ![E, 1]⟩ ![0] bc idx (ix2 e 0)).toInt.toNat (N - 1) = min (idx (ix1 e)).toInt.toNat (N - 1)
  rw [hcol]

end Idealize.ShloMosaic.TakeFill

end
-- ==== Proof.KernelValue.lean ====
/-
  What the kernel program's result buffer holds, read back segment by segment from the launch memory.
  The host stretches around the two regions are read operation by operation; each of the five row selections
  (the edge rows of the entity table; the batch rows of the entity table, of the two scattered sums and of the user
  table) is a take in its default out-of-range mode, which under in-range row numbers is the plain selection of
  rows; the first region rescales every gathered edge row and squares it; the two scatter-adds stay one function of
  their updates; the second region scores every batch row; the last operation lays the [16384 × 1] column out as a vector.
-/
import proofs.«415022_j4870492913893_3_alg».proof.Proof.Gen.KernelIdeal.Frame
import proofs.«415022_j4870492913893_3_alg».proof.Proof.R0Value
import proofs.«415022_j4870492913893_3_alg».proof.Proof.R1Value
import proofs.«415022_j4870492913893_3_alg».proof.Proof.LibTakeFill
import proofs.«415022_j4870492913893_3_alg».proof.Proof.Spec
import Idealize.ShloMosaic.Lib.StableHlo.Run
import Idealize.ShloMosaic.Lib.Pipeline.Value

set_option maxRecDepth 16384

noncomputable section

namespace Cert.KernelIdeal.KValue

open Cert.KernelIdeal Cert.KernelIdeal.Gen Cert.FMSpec
open Idealize.ShloMosaic Idealize.ShloMosaic.TcCoe Idealize.ShloMosaic.ValueIdx Idealize.SL.Sem Idealize.ShloMosaic.StableHlo

/-- Contents carried to a buffer's type and back are the contents. -/
theorem ofBuf_toBuf {T : BufTy} (r : Ref sig .tc) (h1 h1' : r.ty = T) (h2 h2' : r.space ≠ .host) (h3 h3' : r.isScoped = false)
    (v : T.Contents (Elt Ideal)) :
    (TRef.of r h1 h2 h3).ofBuf ((TRef.of r h1' h2' h3').toBuf v) = v := by
  subst h1; rfl

theorem hi1M : (999999#32 : BitVec 32).toInt = (1000000 : Int) - 1 := by decide
theorem hi500k : (499999#32 : BitVec 32).toInt = (500000 : Int) - 1 := by decide

/-- An [a × 1] column laid out as a vector reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

local macro "keep_through " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg)

/-- The six arguments as launched: the user and entity tables, and the index vectors u, i, edge_src, edge_dst. -/
abbrev tU (c : Dev nD) : Arr 500000 := m ((c : Thread nD τ).loc main_arg0)
abbrev tE (c : Dev nD) : Arr 1000000 := m ((c : Thread nD τ).loc main_arg1)
abbrev vU (c : Dev nD) : IVec S16384 32 := m ((c : Thread nD τ).loc main_arg2)
abbrev vI (c : Dev nD) : IVec S16384 32 := m ((c : Thread nD τ).loc main_arg3)
abbrev vSrc (c : Dev nD) : IVec S2000000 32 := m ((c : Thread nD τ).loc main_arg4)
abbrev vDst (c : Dev nD) : IVec S2000000 32 := m ((c : Thread nD τ).loc main_arg5)

/-- The one host operation both programs share: the rows of upd added, from zero, into the rows of a
    [1000000 × 64] array that edge_dst names. -/
def scat (x5 : IVec S2000000 32) (upd : Arr 2000000) : Arr 1000000 :=
  Host.scatterAdd (F := Ideal) scatter_S1000000x64_S2000000x1_S2000000x64_1_0_0_1
    (broadcastInDim S1000000x64 ![] bcast_S_S1000000x64 (constant (F := Ideal) S_ .f32 0x00000000#32))
    (broadcastInDim S2000000x1 ![0] bcast_S2000000_S2000000x1_0 x5) upd

/-- The rescaled edge rows, and the two sums scattered from them. -/
def edgeH (c : Dev nD) : Arr 2000000 := renormA (rowsel pos1000000 (tE m c) (vSrc m c))
def sumS (c : Dev nD) : Arr 1000000 := scat (vDst m c) (edgeH m c)
def sumSQ (c : Dev nD) : Arr 1000000 := scat (vDst m c) (sqA (edgeH m c))

/-! ## An argument's buffer holds its launch contents at every boundary before the second region -/

theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by keep_through hostOps0).trans rfl
theorem W2_arg0 (c : Dev nD) : W2 m ρ c (Proc.devRef .tc main_arg0) = m ((c : Thread nD τ).loc main_arg0) :=
  (W2_of_ne m ρ c main_arg0 (by decide)).trans (W1_arg0 m ρ c)
theorem W3_arg0 (c : Dev nD) : W3 m ρ c (Proc.devRef .tc main_arg0) = m ((c : Thread nD τ).loc main_arg0) :=
  (show W3 m ρ c (Proc.devRef .tc main_arg0) = W2 m ρ c (Proc.devRef .tc main_arg0) by keep_through hostOps1).trans (W2_arg0 m ρ c)
theorem W4_arg0 (c : Dev nD) : W4 m ρ c (Proc.devRef .tc main_arg0) = m ((c : Thread nD τ).loc main_arg0) :=
  (show W4 m ρ c (Proc.devRef .tc main_arg0) = W3 m ρ c (Proc.devRef .tc main_arg0) by keep_through hostOps1_1).trans (W3_arg0 m ρ c)
theorem W5_arg0 (c : Dev nD) : W5 m ρ c (Proc.devRef .tc main_arg0) = m ((c : Thread nD τ).loc main_arg0) :=
  (show W5 m ρ c (Proc.devRef .tc main_arg0) = W4 m ρ c (Proc.devRef .tc main_arg0) by keep_through hostOps1_2).trans (W4_arg0 m ρ c)
theorem W6_arg0 (c : Dev nD) : W6 m ρ c (Proc.devRef .tc main_arg0) = m ((c : Thread nD τ).loc main_arg0) :=
  (show W6 m ρ c (Proc.devRef .tc main_arg0) = W5 m ρ c (Proc.devRef .tc main_arg0) by keep_through hostOps1_3).trans (W5_arg0 m ρ c)

theorem W1_arg1 (c : Dev nD) : W1 m ρ c (Proc.devRef .tc main_arg1) = m ((c : Thread nD τ).loc main_arg1) :=
  (show W1 m ρ c (Proc.devRef .tc main_arg1) = W0 m ρ c (Proc.devRef .tc main_arg1) by keep_through hostOps0).trans rfl
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (show W3 m ρ c (Proc.devRef .tc main_arg1) = W2 m ρ c (Proc.devRef .tc main_arg1) by keep_through hostOps1).trans (W2_arg1 m ρ c)
theorem W4_arg1 (c : Dev nD) : W4 m ρ c (Proc.devRef .tc main_arg1) = m ((c : Thread nD τ).loc main_arg1) :=
  (show W4 m ρ c (Proc.devRef .tc main_arg1) = W3 m ρ c (Proc.devRef .tc main_arg1) by keep_through hostOps1_1).trans (W3_arg1 m ρ c)
theorem W5_arg1 (c : Dev nD) : W5 m ρ c (Proc.devRef .tc main_arg1) = m ((c : Thread nD τ).loc main_arg1) :=
  (show W5 m ρ c (Proc.devRef .tc main_arg1) = W4 m ρ c (Proc.devRef .tc main_arg1) by keep_through hostOps1_2).trans (W4_arg1 m ρ c)
theorem W6_arg1 (c : Dev nD) : W6 m ρ c (Proc.devRef .tc main_arg1) = m ((c : Thread nD τ).loc main_arg1) :=
  (show W6 m ρ c (Proc.devRef .tc main_arg1) = W5 m ρ c (Proc.devRef .tc main_arg1) by keep_through hostOps1_3).trans (W5_arg1 m ρ c)

theorem W1_arg2 (c : Dev nD) : W1 m ρ c (Proc.devRef .tc main_arg2) = m ((c : Thread nD τ).loc main_arg2) :=
  (show W1 m ρ c (Proc.devRef .tc main_arg2) = W0 m ρ c (Proc.devRef .tc main_arg2) by keep_through hostOps0).trans rfl
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (show W3 m ρ c (Proc.devRef .tc main_arg2) = W2 m ρ c (Proc.devRef .tc main_arg2) by keep_through hostOps1).trans (W2_arg2 m ρ c)
theorem W4_arg2 (c : Dev nD) : W4 m ρ c (Proc.devRef .tc main_arg2) = m ((c : Thread nD τ).loc main_arg2) :=
  (show W4 m ρ c (Proc.devRef .tc main_arg2) = W3 m ρ c (Proc.devRef .tc main_arg2) by keep_through hostOps1_1).trans (W3_arg2 m ρ c)
theorem W5_arg2 (c : Dev nD) : W5 m ρ c (Proc.devRef .tc main_arg2) = m ((c : Thread nD τ).loc main_arg2) :=
  (show W5 m ρ c (Proc.devRef .tc main_arg2) = W4 m ρ c (Proc.devRef .tc main_arg2) by keep_through hostOps1_2).trans (W4_arg2 m ρ c)
theorem W6_arg2 (c : Dev nD) : W6 m ρ c (Proc.devRef .tc main_arg2) = m ((c : Thread nD τ).loc main_arg2) :=
  (show W6 m ρ c (Proc.devRef .tc main_arg2) = W5 m ρ c (Proc.devRef .tc main_arg2) by keep_through hostOps1_3).trans (W5_arg2 m ρ c)

theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by keep_through hostOps0).trans rfl
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) by keep_through hostOps1).trans (W2_arg3 m ρ c)
theorem W4_arg3 (c : Dev nD) : W4 m ρ c (Proc.devRef .tc main_arg3) = m ((c : Thread nD τ).loc main_arg3) :=
  (show W4 m ρ c (Proc.devRef .tc main_arg3) = W3 m ρ c (Proc.devRef .tc main_arg3) by keep_through hostOps1_1).trans (W3_arg3 m ρ c)
theorem W5_arg3 (c : Dev nD) : W5 m ρ c (Proc.devRef .tc main_arg3) = m ((c : Thread nD τ).loc main_arg3) :=
  (show W5 m ρ c (Proc.devRef .tc main_arg3) = W4 m ρ c (Proc.devRef .tc main_arg3) by keep_through hostOps1_2).trans (W4_arg3 m ρ c)
theorem W6_arg3 (c : Dev nD) : W6 m ρ c (Proc.devRef .tc main_arg3) = m ((c : Thread nD τ).loc main_arg3) :=
  (show W6 m ρ c (Proc.devRef .tc main_arg3) = W5 m ρ c (Proc.devRef .tc main_arg3) by keep_through hostOps1_3).trans (W5_arg3 m ρ c)

theorem W1_arg5 (c : Dev nD) : W1 m ρ c (Proc.devRef .tc main_arg5) = m ((c : Thread nD τ).loc main_arg5) :=
  (show W1 m ρ c (Proc.devRef .tc main_arg5) = W0 m ρ c (Proc.devRef .tc main_arg5) by keep_through hostOps0).trans rfl
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) by keep_through hostOps1).trans (W2_arg5 m ρ c)
theorem W4_arg5 (c : Dev nD) : W4 m ρ c (Proc.devRef .tc main_arg5) = m ((c : Thread nD τ).loc main_arg5) :=
  (show W4 m ρ c (Proc.devRef .tc main_arg5) = W3 m ρ c (Proc.devRef .tc main_arg5) by keep_through hostOps1_1).trans (W3_arg5 m ρ c)
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) by keep_through hostOps1_2).trans (W4_arg5 m ρ c)
theorem W6_arg5 (c : Dev nD) : W6 m ρ c (Proc.devRef .tc main_arg5) = m ((c : Thread nD τ).loc main_arg5) :=
  (show W6 m ρ c (Proc.devRef .tc main_arg5) = W5 m ρ c (Proc.devRef .tc main_arg5) by keep_through hostOps1_3).trans (W5_arg5 m ρ c)

/-! ## The first take, the first region, the two scatters -/

set_option maxHeartbeats 4000000 in
/-- edgeRows: the rows of (tE m c) that (vSrc m c) names, every number being in range. -/
theorem edgeRows (c : Dev nD) (hs : ∀ e : Fin 2000000, 0 ≤ ((vSrc m c) (ix1 e)).toInt ∧ ((vSrc m c) (ix1 e)).toInt < 1000000) :
    (W1 m ρ c (Proc.devRef .tc main_v0) : Arr 2000000) = rowsel pos1000000 (tE m c) (vSrc m c) := by
  show StableHlo.after hostOps0 (W0 m ρ c) (Proc.devRef .tc main_v0) = _
  have hI0 : (W0 m ρ c (Proc.devRef .tc main_arg4) : IVec S2000000 32) = (vSrc m c) := rfl
  have hT0 : (W0 m ρ c (Proc.devRef .tc main_arg1) : (⟨S1000000x64, .f32⟩ : BufTy).Contents (Elt Ideal)) = (tE m c) := rfl
  generalize W0 m ρ c = Wp at hI0 hT0 ⊢
  after_results_simp
  simp only [ofBuf_toBuf]
  have hI : (TRef.of main_arg4 : TRef sig ⟨S2000000, .i32⟩).ofBuf (Wp (Proc.devRef .tc main_arg4)) = (vSrc m c) := hI0
  have hT : (TRef.of main_arg1 : TRef sig ⟨S1000000x64, .f32⟩).ofBuf (Wp (Proc.devRef .tc main_arg1)) = (tE m c) := hT0
  simp only [hI, hT]
  have hO : ∀ X : (⟨S2000000x64, .f32⟩ : BufTy).Contents (Elt Ideal), (TRef.of main_v0 : TRef sig ⟨S2000000x64, .f32⟩).toBuf X = X := fun _ => rfl
  rw [hO]
  have hR : rowsel pos1000000 (tE m c) (vSrc m c)
    = (fun j => ((tE m c) : Arr 1000000) (ix2 (⟨min (((vSrc m c) : IVec S2000000 32) (ix1 ⟨(j 0).val, (j 0).isLt⟩)).toInt.toNat (1000000 - 1), by omega⟩ : Fin 1000000) ⟨(j 1).val, (j 1).isLt⟩)) := rfl
  rw [hR]
  exact TakeFill.take_fill_rows (α := EReal) (N := 1000000) (C := 64) (E := 2000000) pos1000000
    gather_S1000000x64_S2000000x1_S2000000x64_1_0_n_n_0_1_164 rfl rfl rfl rfl rfl rfl
    bcast_S2000000_S2000000x1_0 bcast_S2000000_S2000000x64_0 reducesTo_S2000000x1_S2000000_d1 h_S_
    (tE m c)
    (broadcastInDim S2000000x64 ![] bcast_S_S2000000x64 (constant (F := Ideal) S_ .f32 0x7FC00000#32))
    (vSrc m c)
    (broadcastInDim S2000000 ![] bcast_S_S2000000 (constantI S_ 32 0#32))
    (broadcastInDim S2000000 ![] bcast_S_S2000000 (constantI S_ 32 1000000#32))
    (broadcastInDim S2000000x1 ![] bcast_S_S2000000x1 (constantI S_ 32 0#32))
    (broadcastInDim S2000000x1 ![0, 1] bcast_S1x1_S2000000x1_0_1 (broadcastInDim S1x1 ![1] bcast_S1_S1x1_1 (constantI S1 32 999999#32)))
    (constantI S_ 1 1#1)
    (fun _ => rfl) (fun _ => rfl) (fun _ => hi1M) rfl hs

/-- The first region's two outputs: the rescaled edge rows and their squares. -/
theorem W2_v1_0 (c : Dev nD) (hs : ∀ e : Fin 2000000, 0 ≤ ((vSrc m c) (ix1 e)).toInt ∧ ((vSrc m c) (ix1 e)).toInt < 1000000) :
    (W2 m ρ c (Proc.devRef .tc main_v1_0) : Arr 2000000) = edgeH m c :=
  (W2_arr m ρ c 1).trans ((R0Value.out1 (V1 m ρ) c).trans (congrArg renormA (edgeRows m ρ c hs)))

theorem W2_v1_1 (c : Dev nD) (hs : ∀ e : Fin 2000000, 0 ≤ ((vSrc m c) (ix1 e)).toInt ∧ ((vSrc m c) (ix1 e)).toInt < 1000000) :
    (W2 m ρ c (Proc.devRef .tc main_v1_1) : Arr 2000000) = sqA (edgeH m c) :=
  (W2_arr m ρ c 2).trans ((R0Value.out2 (V1 m ρ) c).trans (congrArg (fun x => sqA (renormA x)) (edgeRows m ρ c hs)))

set_option maxHeartbeats 4000000 in
theorem W3_v4 (c : Dev nD) (hs : ∀ e : Fin 2000000, 0 ≤ ((vSrc m c) (ix1 e)).toInt ∧ ((vSrc m c) (ix1 e)).toInt < 1000000) :
    (W3 m ρ c (Proc.devRef .tc main_v4) : Arr 1000000) = sumS m c := by
  show StableHlo.after hostOps1 (W2 m ρ c) (Proc.devRef .tc main_v4) = _
  after_results_simp
  rw [W2_arg5 m ρ c, W2_v1_0 m ρ c hs]
  rfl

set_option maxHeartbeats 4000000 in
theorem W3_v7 (c : Dev nD) (hs : ∀ e : Fin 2000000, 0 ≤ ((vSrc m c) (ix1 e)).toInt ∧ ((vSrc m c) (ix1 e)).toInt < 1000000) :
    (W3 m ρ c (Proc.devRef .tc main_v7) : Arr 1000000) = sumSQ m c := by
  show StableHlo.after hostOps1 (W2 m ρ c) (Proc.devRef .tc main_v7) = _
  after_results_simp
  rw [W2_arg5 m ρ c, W2_v1_1 m ρ c hs]
  rfl

/-! ## The four batch takes -/

theorem W4_v4 (c : Dev nD) : W4 m ρ c (Proc.devRef .tc main_v4) = W3 m ρ c (Proc.devRef .tc main_v4) :=
  (show W4 m ρ c (Proc.devRef .tc main_v4) = W3 m ρ c (Proc.devRef .tc main_v4) by keep_through hostOps1_1)

theorem W5_v7 (c : Dev nD) : W5 m ρ c (Proc.devRef .tc main_v7) = W3 m ρ c (Proc.devRef .tc main_v7) :=
  (show W5 m ρ c (Proc.devRef .tc main_v7) = W4 m ρ c (Proc.devRef .tc main_v7) by keep_through hostOps1_2).trans ((show W4 m ρ c (Proc.devRef .tc main_v7) = W3 m ρ c (Proc.devRef .tc main_v7) by keep_through hostOps1_1))

set_option maxHeartbeats 4000000 in
/-- entRows: the rows of (tE m c) that (vI m c) names, every number being in range. -/
theorem entRows (c : Dev nD) (hi : ∀ b : Fin 16384, 0 ≤ ((vI m c) (ix1 b)).toInt ∧ ((vI m c) (ix1 b)).toInt < 1000000) :
    (W4 m ρ c (Proc.devRef .tc main_v8) : Arr 16384) = rowsel pos1000000 (tE m c) (vI m c) := by
  show StableHlo.after hostOps1_1 (W3 m ρ c) (Proc.devRef .tc main_v8) = _
  have hI0 : (W3 m ρ c (Proc.devRef .tc main_arg3) : IVec S16384 32) = (vI m c) := W3_arg3 m ρ c
  have hT0 : (W3 m ρ c (Proc.devRef .tc main_arg1) : (⟨S1000000x64, .f32⟩ : BufTy).Contents (Elt Ideal)) = (tE m c) := W3_arg1 m ρ c
  generalize W3 m ρ c = Wp at hI0 hT0 ⊢
  after_results_simp
  simp only [ofBuf_toBuf]
  have hI : (TRef.of main_arg3 : TRef sig ⟨S16384, .i32⟩).ofBuf (Wp (Proc.devRef .tc main_arg3)) = (vI m c) := hI0
  have hT : (TRef.of main_arg1 : TRef sig ⟨S1000000x64, .f32⟩).ofBuf (Wp (Proc.devRef .tc main_arg1)) = (tE m c) := hT0
  simp only [hI, hT]
  have hO : ∀ X : (⟨S16384x64, .f32⟩ : BufTy).Contents (Elt Ideal), (TRef.of main_v8 : TRef sig ⟨S16384x64, .f32⟩).toBuf X = X := fun _ => rfl
  rw [hO]
  have hR : rowsel pos1000000 (tE m c) (vI m c)
    = (fun j => ((tE m c) : Arr 1000000) (ix2 (⟨min (((vI m c) : IVec S16384 32) (ix1 ⟨(j 0).val, (j 0).isLt⟩)).toInt.toNat (1000000 - 1), by omega⟩ : Fin 1000000) ⟨(j 1).val, (j 1).isLt⟩)) := rfl
  rw [hR]
  exact TakeFill.take_fill_rows (α := EReal) (N := 1000000) (C := 64) (E := 16384) pos1000000
    gather_S1000000x64_S16384x1_S16384x64_1_0_n_n_0_1_164 rfl rfl rfl rfl rfl rfl
    bcast_S16384_S16384x1_0 bcast_S16384_S16384x64_0 reducesTo_S16384x1_S16384_d1 h_S_
    (tE m c)
    (broadcastInDim S16384x64 ![] bcast_S_S16384x64 (constant (F := Ideal) S_ .f32 0x7FC00000#32))
    (vI m c)
    (broadcastInDim S16384 ![] bcast_S_S16384 (constantI S_ 32 0#32))
    (broadcastInDim S16384 ![] bcast_S_S16384 (constantI S_ 32 1000000#32))
    (broadcastInDim S16384x1 ![] bcast_S_S16384x1 (constantI S_ 32 0#32))
    (broadcastInDim S16384x1 ![0, 1] bcast_S1x1_S16384x1_0_1 (broadcastInDim S1x1 ![1] bcast_S1_S1x1_1 (constantI S1 32 999999#32)))
    (constantI S_ 1 1#1)
    (fun _ => rfl) (fun _ => rfl) (fun _ => hi1M) rfl hi

set_option maxHeartbeats 4000000 in
/-- sRows: the rows of (sumS m c) that (vI m c) names, every number being in range. -/
theorem sRows (c : Dev nD) (hi : ∀ b : Fin 16384, 0 ≤ ((vI m c) (ix1 b)).toInt ∧ ((vI m c) (ix1 b)).toInt < 1000000) (hs : ∀ e : Fin 2000000, 0 ≤ ((vSrc m c) (ix1 e)).toInt ∧ ((vSrc m c) (ix1 e)).toInt < 1000000) :
    (W5 m ρ c (Proc.devRef .tc main_v9) : Arr 16384) = rowsel pos1000000 (sumS m c) (vI m c) := by
  show StableHlo.after hostOps1_2 (W4 m ρ c) (Proc.devRef .tc main_v9) = _
  have hI0 : (W4 m ρ c (Proc.devRef .tc main_arg3) : IVec S16384 32) = (vI m c) := W4_arg3 m ρ c
  have hT0 : (W4 m ρ c (Proc.devRef .tc main_v4) : (⟨S1000000x64, .f32⟩ : BufTy).Contents (Elt Ideal)) = (sumS m c) := (W4_v4 m ρ c).trans (W3_v4 m ρ c hs)
  generalize W4 m ρ c = Wp at hI0 hT0 ⊢
  after_results_simp
  simp only [ofBuf_toBuf]
  have hI : (TRef.of main_arg3 : TRef sig ⟨S16384, .i32⟩).ofBuf (Wp (Proc.devRef .tc main_arg3)) = (vI m c) := hI0
  have hT : (TRef.of main_v4 : TRef sig ⟨S1000000x64, .f32⟩).ofBuf (Wp (Proc.devRef .tc main_v4)) = (sumS m c) := hT0
  simp only [hI, hT]
  have hO : ∀ X : (⟨S16384x64, .f32⟩ : BufTy).Contents (Elt Ideal), (TRef.of main_v9 : TRef sig ⟨S16384x64, .f32⟩).toBuf X = X := fun _ => rfl
  rw [hO]
  have hR : rowsel pos1000000 (sumS m c) (vI m c)
    = (fun j => ((sumS m c) : Arr 1000000) (ix2 (⟨min (((vI m c) : IVec S16384 32) (ix1 ⟨(j 0).val, (j 0).isLt⟩)).toInt.toNat (1000000 - 1), by omega⟩ : Fin 1000000) ⟨(j 1).val, (j 1).isLt⟩)) := rfl
  rw [hR]
  exact TakeFill.take_fill_rows (α := EReal) (N := 1000000) (C := 64) (E := 16384) pos1000000
    gather_S1000000x64_S16384x1_S16384x64_1_0_n_n_0_1_164 rfl rfl rfl rfl rfl rfl
    bcast_S16384_S16384x1_0 bcast_S16384_S16384x64_0 reducesTo_S16384x1_S16384_d1 h_S_
    (sumS m c)
    (broadcastInDim S16384x64 ![] bcast_S_S16384x64 (constant (F := Ideal) S_ .f32 0x7FC00000#32))
    (vI m c)
    (broadcastInDim S16384 ![] bcast_S_S16384 (constantI S_ 32 0#32))
    (broadcastInDim S16384 ![] bcast_S_S16384 (constantI S_ 32 1000000#32))
    (broadcastInDim S16384x1 ![] bcast_S_S16384x1 (constantI S_ 32 0#32))
    (broadcastInDim S16384x1 ![0, 1] bcast_S1x1_S16384x1_0_1 (broadcastInDim S1x1 ![1] bcast_S1_S1x1_1 (constantI S1 32 999999#32)))
    (constantI S_ 1 1#1)
    (fun _ => rfl) (fun _ => rfl) (fun _ => hi1M) rfl hi

set_option maxHeartbeats 4000000 in
/-- sqRows: the rows of (sumSQ m c) that (vI m c) names, every number being in range. -/
theorem sqRows (c : Dev nD) (hi : ∀ b : Fin 16384, 0 ≤ ((vI m c) (ix1 b)).toInt ∧ ((vI m c) (ix1 b)).toInt < 1000000) (hs : ∀ e : Fin 2000000, 0 ≤ ((vSrc m c) (ix1 e)).toInt ∧ ((vSrc m c) (ix1 e)).toInt < 1000000) :
    (W6 m ρ c (Proc.devRef .tc main_v10) : Arr 16384) = rowsel pos1000000 (sumSQ m c) (vI m c) := by
  show StableHlo.after hostOps1_3 (W5 m ρ c) (Proc.devRef .tc main_v10) = _
  have hI0 : (W5 m ρ c (Proc.devRef .tc main_arg3) : IVec S16384 32) = (vI m c) := W5_arg3 m ρ c
  have hT0 : (W5 m ρ c (Proc.devRef .tc main_v7) : (⟨S1000000x64, .f32⟩ : BufTy).Contents (Elt Ideal)) = (sumSQ m c) := (W5_v7 m ρ c).trans (W3_v7 m ρ c hs)
  generalize W5 m ρ c = Wp at hI0 hT0 ⊢
  after_results_simp
  simp only [ofBuf_toBuf]
  have hI : (TRef.of main_arg3 : TRef sig ⟨S16384, .i32⟩).ofBuf (Wp (Proc.devRef .tc main_arg3)) = (vI m c) := hI0
  have hT : (TRef.of main_v7 : TRef sig ⟨S1000000x64, .f32⟩).ofBuf (Wp (Proc.devRef .tc main_v7)) = (sumSQ m c) := hT0
  simp only [hI, hT]
  have hO : ∀ X : (⟨S16384x64, .f32⟩ : BufTy).Contents (Elt Ideal), (TRef.of main_v10 : TRef sig ⟨S16384x64, .f32⟩).toBuf X = X := fun _ => rfl
  rw [hO]
  have hR : rowsel pos1000000 (sumSQ m c) (vI m c)
    = (fun j => ((sumSQ m c) : Arr 1000000) (ix2 (⟨min (((vI m c) : IVec S16384 32) (ix1 ⟨(j 0).val, (j 0).isLt⟩)).toInt.toNat (1000000 - 1), by omega⟩ : Fin 1000000) ⟨(j 1).val, (j 1).isLt⟩)) := rfl
  rw [hR]
  exact TakeFill.take_fill_rows (α := EReal) (N := 1000000) (C := 64) (E := 16384) pos1000000
    gather_S1000000x64_S16384x1_S16384x64_1_0_n_n_0_1_164 rfl rfl rfl rfl rfl rfl
    bcast_S16384_S16384x1_0 bcast_S16384_S16384x64_0 reducesTo_S16384x1_S16384_d1 h_S_
    (sumSQ m c)
    (broadcastInDim S16384x64 ![] bcast_S_S16384x64 (constant (F := Ideal) S_ .f32 0x7FC00000#32))
    (vI m c)
    (broadcastInDim S16384 ![] bcast_S_S16384 (constantI S_ 32 0#32))
    (broadcastInDim S16384 ![] bcast_S_S16384 (constantI S_ 32 1000000#32))
    (broadcastInDim S16384x1 ![] bcast_S_S16384x1 (constantI S_ 32 0#32))
    (broadcastInDim S16384x1 ![0, 1] bcast_S1x1_S16384x1_0_1 (broadcastInDim S1x1 ![1] bcast_S1_S1x1_1 (constantI S1 32 999999#32)))
    (constantI S_ 1 1#1)
    (fun _ => rfl) (fun _ => rfl) (fun _ => hi1M) rfl hi

set_option maxHeartbeats 4000000 in
/-- userRows: the rows of (tU m c) that (vU m c) names, every number being in range. -/
theorem userRows (c : Dev nD) (hu : ∀ b : Fin 16384, 0 ≤ ((vU m c) (ix1 b)).toInt ∧ ((vU m c) (ix1 b)).toInt < 500000) :
    (W7 m ρ c (Proc.devRef .tc main_v11) : Arr 16384) = rowsel pos500000 (tU m c) (vU m c) := by
  show StableHlo.after hostOps1_4 (W6 m ρ c) (Proc.devRef .tc main_v11) = _
  have hI0 : (W6 m ρ c (Proc.devRef .tc main_arg2) : IVec S16384 32) = (vU m c) := W6_arg2 m ρ c
  have hT0 : (W6 m ρ c (Proc.devRef .tc main_arg0) : (⟨S500000x64, .f32⟩ : BufTy).Contents (Elt Ideal)) = (tU m c) := W6_arg0 m ρ c
  generalize W6 m ρ c = Wp at hI0 hT0 ⊢
  after_results_simp
  simp only [ofBuf_toBuf]
  have hI : (TRef.of main_arg2 : TRef sig ⟨S16384, .i32⟩).ofBuf (Wp (Proc.devRef .tc main_arg2)) = (vU m c) := hI0
  have hT : (TRef.of main_arg0 : TRef sig ⟨S500000x64, .f32⟩).ofBuf (Wp (Proc.devRef .tc main_arg0)) = (tU m c) := hT0
  simp only [hI, hT]
  have hO : ∀ X : (⟨S16384x64, .f32⟩ : BufTy).Contents (Elt Ideal), (TRef.of main_v11 : TRef sig ⟨S16384x64, .f32⟩).toBuf X = X := fun _ => rfl
  rw [hO]
  have hR : rowsel pos500000 (tU m c) (vU m c)
    = (fun j => ((tU m c) : Arr 500000) (ix2 (⟨min (((vU m c) : IVec S16384 32) (ix1 ⟨(j 0).val, (j 0).isLt⟩)).toInt.toNat (500000 - 1), by omega⟩ : Fin 500000) ⟨(j 1).val, (j 1).isLt⟩)) := rfl
  rw [hR]
  exact TakeFill.take_fill_rows (α := EReal) (N := 500000) (C := 64) (E := 16384) pos500000
    gather_S500000x64_S16384x1_S16384x64_1_0_n_n_0_1_164 rfl rfl rfl rfl rfl rfl
    bcast_S16384_S16384x1_0 bcast_S16384_S16384x64_0 reducesTo_S16384x1_S16384_d1 h_S_
    (tU m c)
    (broadcastInDim S16384x64 ![] bcast_S_S16384x64 (constant (F := Ideal) S_ .f32 0x7FC00000#32))
    (vU m c)
    (broadcastInDim S16384 ![] bcast_S_S16384 (constantI S_ 32 0#32))
    (broadcastInDim S16384 ![] bcast_S_S16384 (constantI S_ 32 500000#32))
    (broadcastInDim S16384x1 ![] bcast_S_S16384x1 (constantI S_ 32 0#32))
    (broadcastInDim S16384x1 ![0, 1] bcast_S1x1_S16384x1_0_1 (broadcastInDim S1x1 ![1] bcast_S1_S1x1_1 (constantI S1 32 499999#32)))
    (constantI S_ 1 1#1)
    (fun _ => rfl) (fun _ => rfl) (fun _ => hi500k) rfl hu

theorem W7_v8 (c : Dev nD) : W7 m ρ c (Proc.devRef .tc main_v8) = W4 m ρ c (Proc.devRef .tc main_v8) :=
  (show W7 m ρ c (Proc.devRef .tc main_v8) = W6 m ρ c (Proc.devRef .tc main_v8) by keep_through hostOps1_4).trans ((show W6 m ρ c (Proc.devRef .tc main_v8) = W5 m ρ c (Proc.devRef .tc main_v8) by keep_through hostOps1_3).trans ((show W5 m ρ c (Proc.devRef .tc main_v8) = W4 m ρ c (Proc.devRef .tc main_v8) by keep_through hostOps1_2)))

theorem W7_v9 (c : Dev nD) : W7 m ρ c (Proc.devRef .tc main_v9) = W5 m ρ c (Proc.devRef .tc main_v9) :=
  (show W7 m ρ c (Proc.devRef .tc main_v9) = W6 m ρ c (Proc.devRef .tc main_v9) by keep_through hostOps1_4).trans ((show W6 m ρ c (Proc.devRef .tc main_v9) = W5 m ρ c (Proc.devRef .tc main_v9) by keep_through hostOps1_3))

theorem W7_v10 (c : Dev nD) : W7 m ρ c (Proc.devRef .tc main_v10) = W6 m ρ c (Proc.devRef .tc main_v10) :=
  (show W7 m ρ c (Proc.devRef .tc main_v10) = W6 m ρ c (Proc.devRef .tc main_v10) by keep_through hostOps1_4)

/-! ## The second region and the result -/

section Result

/-- The second region's output column: the score of every batch row. -/
theorem W8_v12 (c : Dev nD)
    (hu : ∀ b : Fin 16384, 0 ≤ ((vU m c) (ix1 b)).toInt ∧ ((vU m c) (ix1 b)).toInt < 500000)
    (hi : ∀ b : Fin 16384, 0 ≤ ((vI m c) (ix1 b)).toInt ∧ ((vI m c) (ix1 b)).toInt < 1000000)
    (hs : ∀ e : Fin 2000000, 0 ≤ ((vSrc m c) (ix1 e)).toInt ∧ ((vSrc m c) (ix1 e)).toInt < 1000000) :
    (W8 m ρ c (Proc.devRef .tc main_v12) : (⟨2, ![16384, 1]⟩ : Shape).Idx → EReal)
    = scoresCol (rowsel pos500000 (tU m c) (vU m c)) (rowsel pos1000000 (tE m c) (vI m c))
        (rowsel pos1000000 (sumS m c) (vI m c)) (rowsel pos1000000 (sumSQ m c) (vI m c)) := by
  refine (W8_arr m ρ c 4).trans ((R1Value.out4 (V7 m ρ) c).trans ?_)
  show scoresCol (W7 m ρ c (Proc.devRef .tc main_v11) : Arr 16384) (W7 m ρ c (Proc.devRef .tc main_v8) : Arr 16384)
      (W7 m ρ c (Proc.devRef .tc main_v9) : Arr 16384) (W7 m ρ c (Proc.devRef .tc main_v10) : Arr 16384) = _
  rw [userRows m ρ c hu, (W7_v8 m ρ c).trans (entRows m ρ c hi), (W7_v9 m ρ c).trans (sRows m ρ c hi hs),
    (W7_v10 m ρ c).trans (sqRows m ρ c hi hs)]

set_option maxHeartbeats 4000000 in
/-- The result buffer: the scores as a vector. -/
theorem result (c : Dev nD)
    (hu : ∀ b : Fin 16384, 0 ≤ ((vU m c) (ix1 b)).toInt ∧ ((vU m c) (ix1 b)).toInt < 500000)
    (hi : ∀ b : Fin 16384, 0 ≤ ((vI m c) (ix1 b)).toInt ∧ ((vI m c) (ix1 b)).toInt < 1000000)
    (hs : ∀ e : Fin 2000000, 0 ≤ ((vSrc m c) (ix1 e)).toInt ∧ ((vSrc m c) (ix1 e)).toInt < 1000000) :
    (W9 m ρ c (Proc.devRef .tc main_v13) : (⟨1, ![16384]⟩ : Shape).Idx → EReal)
    = scores (rowsel pos500000 (tU m c) (vU m c)) (rowsel pos1000000 (tE m c) (vI m c))
        (rowsel pos1000000 (sumS m c) (vI m c)) (rowsel pos1000000 (sumSQ m c) (vI m c)) := by
  show StableHlo.after hostOps2 (W8 m ρ c) (Proc.devRef .tc main_v13) = _
  after_results_simp
  rw [W8_v12 m ρ c hu hi hs]
  funext j
  obtain ⟨b, rfl⟩ : ∃ b : Fin 16384, j = ix1 b := ⟨j 0, eq_ix1 j⟩
  exact shapeCast_a1_a_apply _ _ b

end Result

end Cert.KernelIdeal.KValue

end
-- ==== Proof.RefValue.lean ====
/-
  The reference, read as values. It rescales every row of the entity table, picks the edges' source rows, adds them
  and their squares into the destination nodes (two scatter-adds, kept as one function of their updates), forms
  s∘s − sq + x at every node, picks the batch's item rows, picks and rescales the batch's user rows, and scores each
  pair by the logistic of the inner product. With the index vectors in range, a wrapped row number is the number itself
  and a gather of whole rows is the selection of the rows the vector names; so the result is, index by index, the score
  of the four picked rows.
-/
import proofs.«415022_j4870492913893_3_alg».proof.Proof.Spec
import proofs.«415022_j4870492913893_3_alg».proof.Proof.LibRowGatherScatter
import proofs.«415022_j4870492913893_3_alg».proof.Proof.Gen.ReferenceIdeal.Read
import Idealize.ShloMosaic.Lib.IdealHost
set_option maxRecDepth 16384

noncomputable section

namespace Cert.ReferenceIdeal.RefValue

open Cert.ReferenceIdeal Cert.ReferenceIdeal.Gen Cert.ReferenceIdeal.Read Cert.FMSpec
open Idealize.ShloMosaic Idealize.ShloMosaic.TcCoe Idealize.ShloMosaic.ValueIdx Idealize.SL.Sem

/-- The one host operation both programs share: the rows of upd added, from zero, into the rows of a
    [1000000 × 64] array that edge_dst names (a row number outside the table lands nowhere). -/
def scat (x5 : IVec S2000000 32) (upd : Arr 2000000) : Arr 1000000 :=
  Host.scatterAdd (F := Ideal) scatter_S1000000x64_S2000000x1_S2000000x64_1_0_0_1
    (broadcastInDim S1000000x64 ![] bcast_S_S1000000x64 (constant (F := Ideal) S_ .f32 0x00000000#32))
    (broadcastInDim S2000000x1 ![0] bcast_S2000000_S2000000x1_0 x5) upd

/-! ## Row numbers: a row number that is not negative passes the wrap-around select unchanged -/

/-- select (x <s 0) (x + c) x is x when x, read signed, is not negative. -/
theorem wrap_nonneg (x c : BitVec 32) (h : 0 ≤ x.toInt) :
    Scalar.select (IntOp.cmpi .slt x 0#32) (IntOp.addi x c) x = x := by
  have h0 : IntOp.cmpi .slt x 0#32 = 0#1 := by
    unfold IntOp.cmpi
    have hlt : x.slt 0#32 = false := by
      simp only [BitVec.slt, BitVec.toInt_zero]
      exact decide_eq_false (by omega)
    rw [hlt]; rfl
  rw [h0, select_zero]

theorem v13_apply (x4 : IVec S2000000 32)
    (hs : ∀ e : Fin 2000000, 0 ≤ (x4 (ix1 e)).toInt ∧ (x4 (ix1 e)).toInt < 1000000) (e : Fin 2000000) :
    val_main_v13 (F := Ideal) x4 (ix1 e) = x4 (ix1 e) := by
  rw [val_main_v13_apply, val_main_v10_apply, val_main_v9_apply, val_main_c_apply]
  exact wrap_nonneg _ _ (hs e).1

theorem v14_apply (x4 : IVec S2000000 32)
    (hs : ∀ e : Fin 2000000, 0 ≤ (x4 (ix1 e)).toInt ∧ (x4 (ix1 e)).toInt < 1000000) (e : Fin 2000000) (z : Fin 1) :
    val_main_v14 (F := Ideal) x4 (ix2 e z) = x4 (ix1 e) := by
  rw [val_main_v14_apply]
  have hidx : idx_main_v14 (ix2 e z) = ix1 e := by
    funext a; match a with | ⟨0, _⟩ => rfl
  rw [hidx, v13_apply x4 hs e]

/-! ## The rescaled table -/

/-- The rescaling factor of row p, as the reference computes it down column [N × 1]. -/
theorem v6_apply (x1 : Arr 1000000) (p : Fin 1000000) (z : Fin 1) :
    val_main_v6 (F := Ideal) x1 (ix2 p z) = scale (rowOf x1 p) := by
  rw [val_main_v6_apply, val_main_v5_apply, val_main_cst_1_apply, val_main_v4_apply, val_main_v3_apply,
    val_main_cst_0_apply, val_main_v2_apply, val_main_v1_apply, val_main_cst_apply, val_main_v0_apply,
    val_main_call0_v2_apply, val_main_call0_v1_apply, val_main_call0_cst_apply]
  simp only [Ideal.minimumf_def, Ideal.hostDivf_def, Ideal.maximumf_def, Ideal.hostUnary_sqrt_def, Ideal.ofBits_def,
    Ideal.ofBits_zero_f32, zero_add]
  unfold scale
  have hsum : (∑ k : Fin 64, val_main_call0_v0 (F := Ideal) x1 (idx_main_call0_v1 (idx_main_call0_v2 (ix2 p z)) k))
      = ∑ k : Fin 64, rowOf x1 p k * rowOf x1 p k := by
    refine Finset.sum_congr rfl fun k _ => ?_
    rw [val_main_call0_v0_apply]
    have hidx : idx_main_call0_v1 (idx_main_call0_v2 (ix2 p z)) k = ix2 p k := by
      funext a; match a with | ⟨0, _⟩ => rfl | ⟨1, _⟩ => rfl
    rw [hidx]
    rfl
  rw [hsum]

/-- The rescaled entity table is the specification's. -/
theorem v8_eq (x1 : Arr 1000000) : val_main_v8 (F := Ideal) x1 = renormA x1 := by
  funext j
  obtain ⟨p, q, rfl⟩ : ∃ p q, j = ix2 p q := ⟨j 0, j 1, eq_ix2 j⟩
  rw [val_main_v8_apply, val_main_v7_apply]
  have hidx : idx_main_v7 (ix2 p q) = ix2 p (0 : Fin 1) := by
    funext a; match a with | ⟨0, _⟩ => rfl | ⟨1, _⟩ => rfl
  rw [hidx, v6_apply, renormA_apply]
  rfl

/-! ## The three gathers pick whole rows -/

/-- A gather of whole rows whose index column reads as the index vector picks the rows the vector names. -/
theorem gather_eq_rowsel {N E : Nat} (hN : 0 < N)
    (d : GatherDims ⟨2, ![N, 64]⟩ ⟨2, ![E, 1]⟩ ⟨2, ![E, 64]⟩)
    (hoff : d.offsetDims = [1]) (hcoll : d.collapsedSliceDims = [0]) (hob : d.operandBatchingDims = [])
    (hsim : d.startIndexMap = [0]) (hivd : d.indexVectorDim = 1) (hss : d.sliceSizes = ![1, 64])
    (x : Arr N) (col : IVec ⟨2, ![E, 1]⟩ 32) (idx : IVec ⟨1, ![E]⟩ 32)
    (hcol : ∀ e : Fin E, col (ix2 e (0 : Fin 1)) = idx (ix1 e)) :
    Host.gather d x col = rowsel hN x idx := by
  funext j
  obtain ⟨e, k, rfl⟩ : ∃ e k, j = ix2 e k := ⟨j 0, j 1, eq_ix2 j⟩
  rw [RowOps.gather_rows_apply d hoff hcoll hob hsim hivd hss x col e k hN, rowsel_apply]
  simp only [hcol e]
  rfl

theorem v15_eq (x1 : Arr 1000000) (x4 : IVec S2000000 32)
    (hs : ∀ e : Fin 2000000, 0 ≤ (x4 (ix1 e)).toInt ∧ (x4 (ix1 e)).toInt < 1000000) :
    val_main_v15 (F := Ideal) x1 x4 = rowsel pos1000000 (renormA x1) x4 := by
  unfold val_main_v15
  rw [v8_eq]
  exact gather_eq_rowsel pos1000000 _ rfl rfl rfl rfl rfl rfl _ _ x4 (fun e => v14_apply x4 hs e 0)

theorem v30_apply (x3 : IVec S16384 32)
    (hi : ∀ b : Fin 16384, 0 ≤ (x3 (ix1 b)).toInt ∧ (x3 (ix1 b)).toInt < 1000000) (b : Fin 16384) :
    val_main_v30 (F := Ideal) x3 (ix1 b) = x3 (ix1 b) := by
  rw [val_main_v30_apply, val_main_v27_apply, val_main_v26_apply, val_main_c_5_apply]
  exact wrap_nonneg _ _ (hi b).1

theorem v31_apply (x3 : IVec S16384 32)
    (hi : ∀ b : Fin 16384, 0 ≤ (x3 (ix1 b)).toInt ∧ (x3 (ix1 b)).toInt < 1000000) (b : Fin 16384) (z : Fin 1) :
    val_main_v31 (F := Ideal) x3 (ix2 b z) = x3 (ix1 b) := by
  rw [val_main_v31_apply]
  have hidx : idx_main_v31 (ix2 b z) = ix1 b := by
    funext a; match a with | ⟨0, _⟩ => rfl
  rw [hidx, v30_apply x3 hi b]

theorem v32_eq (x1 : Arr 1000000) (x3 : IVec S16384 32) (x4 x5 : IVec S2000000 32)
    (hi : ∀ b : Fin 16384, 0 ≤ (x3 (ix1 b)).toInt ∧ (x3 (ix1 b)).toInt < 1000000) :
    val_main_v32 (F := Ideal) x1 x3 x4 x5 = rowsel pos1000000 (val_main_v25 (F := Ideal) x1 x4 x5) x3 := by
  unfold val_main_v32
  exact gather_eq_rowsel pos1000000 _ rfl rfl rfl rfl rfl rfl _ _ x3 (fun b => v31_apply x3 hi b 0)

theorem v37_apply (x2 : IVec S16384 32)
    (hu : ∀ b : Fin 16384, 0 ≤ (x2 (ix1 b)).toInt ∧ (x2 (ix1 b)).toInt < 500000) (b : Fin 16384) :
    val_main_v37 (F := Ideal) x2 (ix1 b) = x2 (ix1 b) := by
  rw [val_main_v37_apply, val_main_v34_apply, val_main_v33_apply, val_main_c_7_apply]
  exact wrap_nonneg _ _ (hu b).1

theorem v38_apply (x2 : IVec S16384 32)
    (hu : ∀ b : Fin 16384, 0 ≤ (x2 (ix1 b)).toInt ∧ (x2 (ix1 b)).toInt < 500000) (b : Fin 16384) (z : Fin 1) :
    val_main_v38 (F := Ideal) x2 (ix2 b z) = x2 (ix1 b) := by
  rw [val_main_v38_apply]
  have hidx : idx_main_v38 (ix2 b z) = ix1 b := by
    funext a; match a with | ⟨0, _⟩ => rfl
  rw [hidx, v37_apply x2 hu b]

theorem v39_eq (x0 : Arr 500000) (x2 : IVec S16384 32)
    (hu : ∀ b : Fin 16384, 0 ≤ (x2 (ix1 b)).toInt ∧ (x2 (ix1 b)).toInt < 500000) :
    val_main_v39 (F := Ideal) x0 x2 = rowsel pos500000 x0 x2 := by
  unfold val_main_v39
  exact gather_eq_rowsel pos500000 _ rfl rfl rfl rfl rfl rfl _ _ x2 (fun b => v38_apply x2 hu b 0)

/-! ## The two scatter-adds, kept whole, and s·s − sq + x -/

theorem v18_eq (x1 : Arr 1000000) (x4 x5 : IVec S2000000 32) :
    val_main_v18 (F := Ideal) x1 x4 x5 = scat x5 (val_main_v15 (F := Ideal) x1 x4) := by
  unfold val_main_v18 val_main_v16 val_main_v17 val_main_cst_3 scat
  rfl

theorem v22_eq (x1 : Arr 1000000) (x4 x5 : IVec S2000000 32) :
    val_main_v22 (F := Ideal) x1 x4 x5 = scat x5 (val_main_v19 (F := Ideal) x1 x4) := by
  unfold val_main_v22 val_main_v20 val_main_v21 val_main_cst_4 scat
  rfl

theorem v19_eq (x1 : Arr 1000000) (x4 : IVec S2000000 32) :
    val_main_v19 (F := Ideal) x1 x4 = sqA (val_main_v15 (F := Ideal) x1 x4) := by
  funext j
  rw [val_main_v19_apply, sqA_apply]
  rfl

theorem v25_apply (x1 : Arr 1000000) (x4 x5 : IVec S2000000 32)
    (hs : ∀ e : Fin 2000000, 0 ≤ (x4 (ix1 e)).toInt ∧ (x4 (ix1 e)).toInt < 1000000) (j : S1000000x64.Idx) :
    val_main_v25 (F := Ideal) x1 x4 x5 j
      = scat x5 (rowsel pos1000000 (renormA x1) x4) j * scat x5 (rowsel pos1000000 (renormA x1) x4) j
        - scat x5 (sqA (rowsel pos1000000 (renormA x1) x4)) j + renormA x1 j := by
  rw [val_main_v25_apply, val_main_v24_apply, val_main_v23_apply, v18_eq, v22_eq, v19_eq, v15_eq x1 x4 hs, v8_eq]
  rfl

/-! ## The rescaled user rows -/

theorem v46_apply (x0 : Arr 500000) (x2 : IVec S16384 32) (b : Fin 16384) (z : Fin 1) :
    val_main_v46 (F := Ideal) x0 x2 (ix2 b z) = scale (rowOf (val_main_v39 (F := Ideal) x0 x2) b) := by
  rw [val_main_v46_apply, val_main_v45_apply, val_main_cst_11_apply, val_main_v44_apply, val_main_v43_apply,
    val_main_cst_10_apply, val_main_v42_apply, val_main_v41_apply, val_main_cst_9_apply, val_main_v40_apply,
    val_main_call1_v2_apply, val_main_call1_v1_apply, val_main_call1_cst_apply]
  simp only [Ideal.minimumf_def, Ideal.hostDivf_def, Ideal.maximumf_def, Ideal.hostUnary_sqrt_def, Ideal.ofBits_def,
    Ideal.ofBits_zero_f32, zero_add]
  unfold scale
  have hsum : (∑ k : Fin 64, val_main_call1_v0 (F := Ideal) x0 x2 (idx_main_call1_v1 (idx_main_call1_v2 (ix2 b z)) k))
      = ∑ k : Fin 64, rowOf (val_main_v39 (F := Ideal) x0 x2) b k * rowOf (val_main_v39 (F := Ideal) x0 x2) b k := by
    refine Finset.sum_congr rfl fun k _ => ?_
    rw [val_main_call1_v0_apply]
    have hidx : idx_main_call1_v1 (idx_main_call1_v2 (ix2 b z)) k = ix2 b k := by
      funext a; match a with | ⟨0, _⟩ => rfl | ⟨1, _⟩ => rfl
    rw [hidx]
    rfl
  rw [hsum]

theorem v48_eq (x0 : Arr 500000) (x2 : IVec S16384 32) :
    val_main_v48 (F := Ideal) x0 x2 = renormA (val_main_v39 (F := Ideal) x0 x2) := by
  funext j
  obtain ⟨b, q, rfl⟩ : ∃ b q, j = ix2 b q := ⟨j 0, j 1, eq_ix2 j⟩
  rw [val_main_v48_apply, val_main_v47_apply]
  have hidx : idx_main_v47 (ix2 b q) = ix2 b (0 : Fin 1) := by
    funext a; match a with | ⟨0, _⟩ => rfl | ⟨1, _⟩ => rfl
  rw [hidx, v46_apply, renormA_apply]
  rfl

/-- The reference's result, index by index: the scores of the batch rows. -/
theorem value (x0 : Arr 500000) (x1 : Arr 1000000) (x2 x3 : IVec S16384 32) (x4 x5 : IVec S2000000 32)
    (hu : ∀ b : Fin 16384, 0 ≤ (x2 (ix1 b)).toInt ∧ (x2 (ix1 b)).toInt < 500000)
    (hi : ∀ b : Fin 16384, 0 ≤ (x3 (ix1 b)).toInt ∧ (x3 (ix1 b)).toInt < 1000000)
    (hs : ∀ e : Fin 2000000, 0 ≤ (x4 (ix1 e)).toInt ∧ (x4 (ix1 e)).toInt < 1000000) :
    val_main_v56 (F := Ideal) x0 x1 x2 x3 x4 x5
      = scores (rowsel pos500000 x0 x2) (rowsel pos1000000 x1 x3)
          (rowsel pos1000000 (scat x5 (rowsel pos1000000 (renormA x1) x4)) x3)
          (rowsel pos1000000 (scat x5 (sqA (rowsel pos1000000 (renormA x1) x4))) x3) := by
  funext j
  obtain ⟨b, rfl⟩ : ∃ b, j = ix1 b := ⟨j 0, eq_ix1 j⟩
  -- the last operations: 1 / (1 + exp (−(0 + Σ_k …)))
  rw [val_main_v56_apply, val_main_v55_apply, val_main_cst_14_apply, val_main_v54_apply, val_main_v53_apply,
    val_main_cst_13_apply, val_main_v52_apply, val_main_v51_apply, val_main_v50_apply, val_main_cst_12_apply]
  simp only [Ideal.hostDivf_def, Ideal.addf_def, Ideal.hostUnary_exp_def, Ideal.hostNegf_def, Ideal.negf_def,
    Ideal.ofBits_def, Ideal.ofBits_zero_f32, Ideal.ofBits_one_f32, zero_add]
  rw [scores_apply]
  unfold score Ideal.logistic
  -- the row sum, term by term
  have hsum : (∑ k : Fin 64, val_main_v49 (F := Ideal) x0 x1 x2 x3 x4 x5 (idx_main_v50 (ix1 b) k))
      = ∑ k : Fin 64, renorm (rowOf (rowsel pos500000 x0 x2) b) k
          * (rowOf (rowsel pos1000000 (scat x5 (rowsel pos1000000 (renormA x1) x4)) x3) b k
              * rowOf (rowsel pos1000000 (scat x5 (rowsel pos1000000 (renormA x1) x4)) x3) b k
            - rowOf (rowsel pos1000000 (scat x5 (sqA (rowsel pos1000000 (renormA x1) x4))) x3) b k
            + renorm (rowOf (rowsel pos1000000 x1 x3) b) k) := by
    refine Finset.sum_congr rfl fun k _ => ?_
    have hidx : idx_main_v50 (ix1 b) k = ix2 b k := by
      funext a; match a with | ⟨0, _⟩ => rfl | ⟨1, _⟩ => rfl
    rw [hidx, val_main_v49_apply, v48_eq, v39_eq x0 x2 hu, v32_eq x1 x3 x4 x5 hi, renormA_apply, rowsel_apply,
      v25_apply x1 x4 x5 hs]
    rfl
  rw [hsum]

end Cert.ReferenceIdeal.RefValue

end
-- ==== Proof.lean ====
/-
  The certificate of the factorization-machine scoring kernel against its jnp reference, over the extended reals.

  Both programs score a batch of (user, item) pairs. Every row of the entity table is rescaled to length at most 1
  (a row r becomes r · min 1 (1 / max ‖r‖ ε)); for every edge the rescaled source row h is added into the destination
  node's sums s = Σ h and sq = Σ h∘h; an item's vector is s∘s − sq + x at the item's node, x its rescaled row; a user's
  vector is the user's rescaled row; the score is the logistic function of their inner product.
  The reference rescales the whole table first and then picks rows; the kernel picks rows first (the edge rows, and
  the batch's rows of the table and of the two sums) and rescales only those, in two tiled passes. Rescaling is row by
  row, so it commutes with picking rows: that is the whole difference, and no law of arithmetic is used, so the
  finiteness of the tables is never opened. The kernel's row selection replaces an out-of-range row by a fill value
  where the reference's clamps the row number; the precondition keeps the three index vectors u, i and edge_src inside
  their tables, where the two selections agree. The scatter-adds by edge_dst are the same operation of the same
  operands on both sides and are never opened.
-/
import proofs.«415022_j4870492913893_3_alg».proof.Defs
import proofs.«415022_j4870492913893_3_alg».proof.Proof.Gen.Kernel
import proofs.«415022_j4870492913893_3_alg».proof.Proof.Gen.Kernel.Skeleton
import proofs.«415022_j4870492913893_3_alg».proof.Proof.Gen.Kernel.Launch
import proofs.«415022_j4870492913893_3_alg».proof.Proof.Gen.Kernel.Points
import proofs.«415022_j4870492913893_3_alg».proof.Proof.Gen.Kernel.Frame
import proofs.«415022_j4870492913893_3_alg».proof.Proof.Gen.KernelIdeal
import proofs.«415022_j4870492913893_3_alg».proof.Proof.Gen.KernelIdeal.Skeleton
import proofs.«415022_j4870492913893_3_alg».proof.Proof.Gen.KernelIdeal.Launch
import proofs.«415022_j4870492913893_3_alg».proof.Proof.Gen.KernelIdeal.Points
import proofs.«415022_j4870492913893_3_alg».proof.Proof.Gen.KernelIdeal.Frame
import proofs.«415022_j4870492913893_3_alg».proof.Proof.Gen.ReferenceIdeal
import proofs.«415022_j4870492913893_3_alg».proof.Proof.Gen.Pre_finite_inputs
import proofs.«415022_j4870492913893_3_alg».proof.Proof.Gen.ReferenceIdeal.Run
import proofs.«415022_j4870492913893_3_alg».proof.Proof.Gen.ReferenceIdeal.Read
import proofs.«415022_j4870492913893_3_alg».proof.Proof.PreRange
import proofs.«415022_j4870492913893_3_alg».proof.Proof.KernelRun
import proofs.«415022_j4870492913893_3_alg».proof.Proof.KernelValue
import proofs.«415022_j4870492913893_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.FMSpec

/-- The two programs' scatter-adds by edge_dst are one function of the updates. -/
theorem scat_eq (x5 : IVec Cert.KernelIdeal.S2000000 32) (upd : Arr 2000000) :
    Cert.ReferenceIdeal.RefValue.scat x5 upd = Cert.KernelIdeal.KValue.scat x5 upd := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the batch's scores: the kernel's result buffer read back through its segments, the
    reference's term read operation by operation, from memories that agree on the arguments. -/
theorem algebraic : Cert.algebraic_KernelIdeal_ReferenceIdeal := by
  intro m ρ m' ρ' hpre hagree
  refine ⟨fun c => Cert.KernelIdeal.Gen.W9 m ρ c (Proc.devRef .tc Cert.KernelIdeal.main_v13),
    Cert.KernelIdeal.RunNamed.run m ρ, ?_⟩
  refine (θ_run Cert.ReferenceIdeal.defs _ _).mono (fun _ h c => ⟨(h c).1.trans ?_, (h c).2⟩)
    (Cert.ReferenceIdeal.Value.run (F := Ideal) m' ρ')
  obtain ⟨hu, hi, hs⟩ := Cert.PreRange.ranges _ _ _ _ _ _ (hpre c)
  obtain ⟨e0, e1, e2, e3, e4, e5⟩ := hagree c
  rw [Cert.ReferenceIdeal.Read.val_main_v56_eq, e0, e1, e2, e3, e4, e5]
  refine (Cert.ReferenceIdeal.RefValue.value _ _ _ _ _ _ hu hi hs).trans ?_
  refine Eq.trans ?_ (Cert.KernelIdeal.KValue.result m ρ c hu hi hs).symm
  simp only [scat_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
